-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v17)) (v1 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_v9) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x2x2048x1024 : Shape := ⟨4, ![1, 2, 2048, 1024]⟩
abbrev S32 : Shape := ⟨1, ![32]⟩
abbrev S1024 : Shape := ⟨1, ![1024]⟩
abbrev S_ : Shape := ⟨0, ![]⟩

class Facts : Prop where
  bcast_S_S1x2x2048x1024 : S_.BroadcastsInDim S1x2x2048x1024 (![] : Fin 0 → Fin S1x2x2048x1024.rank)
  reducesTo_S1x2x2048x1024_S_d0_1_2_3 : S1x2x2048x1024.ReducesTo [0, 1, 2, 3] S_
  h_S_ : 0 < S_.numel
  bcast_S_S32 : S_.BroadcastsInDim S32 (![] : Fin 0 → Fin S32.rank)
  reducesTo_S32_S_d0 : S32.ReducesTo [0] S_
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S1x2x2048x1024 .f32) (main_arg1 : FVec F S32 .f32) (main_arg2 : FVec F S1024 .f32) : IVec S_ 1 :=
  let main_v0 : FVec F S1x2x2048x1024 .f32 := Host.absf main_arg0
  let main_cst : FVec F S_ .f32 := constant S_ .f32 0x7F800000#32
  let main_v1 : FVec F S1x2x2048x1024 .f32 := broadcastInDim S1x2x2048x1024 ![] bcast_S_S1x2x2048x1024 main_cst
  let main_v2 : IVec S1x2x2048x1024 1 := cmpf .olt main_v0 main_v1
  let main_c : IVec S_ 1 := constantI S_ 1 1#1
  let main_v3 : IVec S_ 1 := (fun x v => Host.reduce IntOp.andi x v reducesTo_S1x2x2048x1024_S_d0_1_2_3 h_S_) main_v2 main_c
  let main_v4 : FVec F S32 .f32 := Host.absf main_arg1
  let main_cst_0 : FVec F S_ .f32 := constant S_ .f32 0x7F800000#32
  let main_v5 : FVec F S32 .f32 := broadcastInDim S32 ![] bcast_S_S32 main_cst_0
  let main_v6 : IVec S32 1 := cmpf .olt main_v4 main_v5
  let main_c_1 : IVec S_ 1 := constantI S_ 1 1#1
  let main_v7 : IVec S_ 1 := (fun x v => Host.reduce IntOp.andi x v reducesTo_S32_S_d0 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  main_v13
-- ==== Kernel.lean ====
abbrev S1x2x2048x1024 : Shape := ⟨4, ![1, 2, 2048, 1024]⟩
abbrev S32 : Shape := ⟨1, ![32]⟩
abbrev S1024 : Shape := ⟨1, ![1024]⟩
abbrev S32x1 : Shape := ⟨2, ![32, 1]⟩
abbrev S1x1024 : Shape := ⟨2, ![1, 1024]⟩
abbrev S32x1024 : Shape := ⟨2, ![32, 1024]⟩
abbrev S_ : Shape := ⟨0, ![]⟩
abbrev S32x8x128 : Shape := ⟨3, ![32, 8, 128]⟩
abbrev S32x8 : Shape := ⟨2, ![32, 8]⟩
abbrev S1x32x2x2048x1024 : Shape := ⟨5, ![1, 32, 2, 2048, 1024]⟩
abbrev S1x2x2048x128 : Shape := ⟨4, ![1, 2, 2048, 128]⟩
abbrev S1x8x2x2048x128 : Shape := ⟨5, ![1, 8, 2, 2048, 128]⟩
abbrev S1x2x4096x128 : Shape := ⟨4, ![1, 2, 4096, 128]⟩
abbrev S1x1 : Shape := ⟨2, ![1, 1]⟩
abbrev S1x1x2x2048x128 : Shape := ⟨5, ![1, 1, 2, 2048, 128]⟩

abbrev nBuf : Space → Nat
  | .hbm => 50
  | .vmem => 5
  | .smem => 1
  | _ => 0

abbrev bufTy : (tb : Table) → Fin (tcTables nBuf tb) → BufTy
  | .hbm, ⟨0, _⟩ => ⟨S1x2x2048x1024, .f32⟩
  | .hbm, ⟨1, _⟩ => ⟨S32, .f32⟩
  | .hbm, ⟨2, _⟩ => ⟨S1024, .f32⟩
  | .hbm, ⟨3, _⟩ => ⟨S32x1, .f32⟩
  | .hbm, ⟨4, _⟩ => ⟨S1x1024, .f32⟩
  | .hbm, ⟨5, _⟩ => ⟨S32x1024, .f32⟩
  | .hbm, ⟨6, _⟩ => ⟨S32x1024, .f32⟩
  | .hbm, ⟨7, _⟩ => ⟨S32x1024, .f32⟩
  | .hbm, ⟨8, _⟩ => ⟨S_, .f32⟩
  | .hbm, ⟨9, _⟩ => ⟨S32x1024, .f32⟩
  | .hbm, ⟨10, _⟩ => ⟨S32x1024, .f32⟩
  | .hbm, ⟨11, _⟩ => ⟨S32x1024, .f32⟩
  | .hbm, ⟨12, _⟩ => ⟨S_, .f32⟩
  | .hbm, ⟨13, _⟩ => ⟨S32x1024, .f32⟩
  | .hbm, ⟨14, _⟩ => ⟨S32x1024, .f32⟩
  | .hbm, ⟨15, _⟩ => ⟨S32x8x128, .f32⟩
  | .hbm, ⟨16, _⟩ => ⟨S_, .f32⟩
  | .hbm, ⟨17, _⟩ => ⟨S32x8, .f32⟩
  | .hbm, ⟨18, _⟩ => ⟨S_, .f32⟩
  | .hbm, ⟨19, _⟩ => ⟨S32x8, .f32⟩
  | .hbm, ⟨20, _⟩ => ⟨S32x8, .f32⟩
  | .hbm, ⟨21, _⟩ => ⟨S_, .f32⟩
  | .hbm, ⟨22, _⟩ => ⟨S32x8, .f32⟩
  | .hbm, ⟨23, _⟩ => ⟨S32x8, .i1⟩
  | .hbm, ⟨24, _⟩ => ⟨S32x8, .f32⟩
  | .hbm, ⟨25, _⟩ => ⟨S32x8, .f32⟩
  | .hbm, ⟨26, _⟩ => ⟨S32x8, .f32⟩
  | .hbm, ⟨27, _⟩ => ⟨S32x8, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i1⟩
  | .hbm, ⟨32, _⟩ => ⟨S_, .i32⟩
  | .hbm, ⟨33, _⟩ => ⟨S_, .i32⟩
  | .hbm, ⟨34, _⟩ => ⟨S32x8, .i32⟩
  | .hbm, ⟨35, _⟩ => ⟨S32x8, .i32⟩
  | .hbm, ⟨36, _⟩ => ⟨S_, .i32⟩
  | .hbm, ⟨37, _⟩ => ⟨S32x8, .i32⟩
  | .hbm, ⟨38, _⟩ => ⟨S32x8, .i1⟩
  | .hbm, ⟨39, _⟩ => ⟨S_, .i32⟩
  | .hbm, ⟨40, _⟩ => ⟨S32x8, .i32⟩
  | .hbm, ⟨41, _⟩ => ⟨S32x8, .i1⟩
  | .hbm, ⟨42, _⟩ => ⟨S_, .i32⟩
  | .hbm, ⟨43, _⟩ => ⟨S_, .i1⟩
  | .hbm, ⟨44, _⟩ => ⟨S32x8, .i1⟩
  | .hbm, ⟨45, _⟩ => ⟨S32x8, .i1⟩
  | .hbm, ⟨46, _⟩ => ⟨S32x8, .i1⟩
  | .hbm, ⟨47, _⟩ => ⟨S32x8, .i32⟩
  | .hbm, ⟨48, _⟩ => ⟨S32x8, .i32⟩
  | .hbm, ⟨49, _⟩ => ⟨S1x32x2x2048x1024, .f32⟩
  | .local _ .vmem, ⟨0, _⟩ => ⟨S1x2x2048x128, .f32⟩
  | .local _ .vmem, ⟨1, _⟩ => ⟨S1x2x2048x128, .f32⟩
  | .local _ .vmem, ⟨2, _⟩ => ⟨S1x8x2x2048x128, .f32⟩
  | .local _ .vmem, ⟨3, _⟩ => ⟨S1x8x2x2048x128, .f32⟩
  | .local _ .vmem, ⟨4, _⟩ => ⟨S1x2x4096x128, .f32⟩
  | .local _ .smem, ⟨0, _⟩ => ⟨S32x8, .i32⟩
  | _, _ => ⟨S1x2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_call0_cst : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_v14 : Ref sig .tc := ⟨.hbm, 26, rfl⟩
abbrev main_v15 : Ref sig .tc := ⟨.hbm, 27, rfl⟩
abbrev main_c : Ref sig .tc := ⟨.hbm, 28, rfl⟩
abbrev main_call1_v0 : Ref sig .tc := ⟨.hbm, 29, rfl⟩
abbrev main_call1_c : Ref sig .tc := ⟨.hbm, 30, rfl⟩
abbrev main_call1_v1 : Ref sig .tc := ⟨.hbm, 31, rfl⟩
abbrev main_call1_c_0 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_c_1 : Ref sig .tc := ⟨.hbm, 36, rfl⟩
abbrev main_call1_v5 : Ref sig .tc := ⟨.hbm, 37, rfl⟩
abbrev main_call1_v6 : Ref sig .tc := ⟨.hbm, 38, rfl⟩
abbrev main_call1_c_2 : Ref sig .tc := ⟨.hbm, 39, rfl⟩
abbrev main_call1_v7 : Ref sig .tc := ⟨.hbm, 40, rfl⟩
abbrev main_call1_v8 : Ref sig .tc := ⟨.hbm, 41, rfl⟩
abbrev main_call1_c_3 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_v12 : Ref sig .tc := ⟨.hbm, 46, rfl⟩
abbrev main_call1_v13 : Ref sig .tc := ⟨.hbm, 47, rfl⟩
abbrev main_call1_v14 : Ref sig .tc := ⟨.hbm, 48, rfl⟩
abbrev main_v17 : Ref sig .tc := ⟨.hbm, 49, rfl⟩
abbrev main_v16 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![8, 4], ![false, false]⟩

abbrev pre0 : Pipeline.Prefetch sig := ⟨1, ![main_v16.idx], fun | 0 => main_v16.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 2 → Nat :=
  let arg1 : BitVec 32 := BitVec.ofNat 32 (i 1).val
  let c8_i32 : BitVec 32 := 8#32
  let v3 : BitVec 32 := Scalar.muli arg1 c8_i32
  let c0_i32_1 : BitVec 32 := 0#32
  let v4 : BitVec 32 := Scalar.addi v3 c0_i32_1
  let v5 : Index := Scalar.indexCast v4
  let arg0 : BitVec 32 := BitVec.ofNat 32 (i 0).val
  let v6 : Index := Scalar.indexCast arg0
  ![v5.toNat, v6.toNat]
def k0_off2 (v7 : BitVec 32) : Fin 4 → Nat :=
  let c0 : Index := 0#32
  let c0_2 : Index := 0#32
  let v8 : Index := Scalar.indexCast v7
  let c0_3 : Index := 0#32
  ![0, 0, v8.toNat, 0]

def k0_chk1 (v7 : BitVec 32) : Prop :=
  (∀ a, (k0_off2 v7) a + S1x2x2048x128.size a ≤ S1x2x4096x128.size a)
instance k0_chk1.dec : ∀ (v7 : BitVec 32), Decidable (k0_chk1 v7) := fun v7 => decidable_of_iff' _ (Iff.of_eq (k0_chk1.eq_1 v7))
theorem k0_off2_inb : ∀ (v7 : BitVec 32) (k0_hw1 : k0_chk1 v7), ∀ a, (k0_off2 v7) a + S1x2x2048x128.size a ≤ S1x2x4096x128.size a := fun v7 k0_hw1 => k0_hw1

def k0_off3 (i : grid0.Coords) : Fin 2 → Nat :=
  let arg1 : BitVec 32 := BitVec.ofNat 32 (i 1).val
  let c8_i32_9 : BitVec 32 := 8#32
  let v13 : BitVec 32 := Scalar.muli arg1 c8_i32_9
  let c1_i32 : BitVec 32 := 1#32
  let v14 : BitVec 32 := Scalar.addi v13 c1_i32
  let v15 : Index := Scalar.indexCast v14
  let arg0 : BitVec 32 := BitVec.ofNat 32 (i 0).val
  let v16 : Index := Scalar.indexCast arg0
  ![v15.toNat, v16.toNat]
def k0_off4 (v17 : BitVec 32) : Fin 4 → Nat :=
  let c0_10 : Index := 0#32
  let c0_11 : Index := 0#32
  let v18 : Index := Scalar.indexCast v17
  let c0_12 : Index := 0#32
  ![0, 0, v18.toNat, 0]

def k0_chk2 (v17 : BitVec 32) : Prop :=
  (∀ a, (k0_off4 v17) a + S1x2x2048x128.size a ≤ S1x2x4096x128.size a)
instance k0_chk2.dec : ∀ (v17 : BitVec 32), Decidable (k0_chk2 v17) := fun v17 => decidable_of_iff' _ (Iff.of_eq (k0_chk2.eq_1 v17))
theorem k0_off4_inb : ∀ (v17 : BitVec 32) (k0_hw2 : k0_chk2 v17), ∀ a, (k0_off4 v17) a + S1x2x2048x128.size a ≤ S1x2x4096x128.size a := fun v17 k0_hw2 => k0_hw2

def k0_off5 (i : grid0.Coords) : Fin 2 → Nat :=
  let arg1 : BitVec 32 := BitVec.ofNat 32 (i 1).val
  let c8_i32_17 : BitVec 32 := 8#32
  let v23 : BitVec 32 := Scalar.muli arg1 c8_i32_17
  let c2_i32 : BitVec 32 := 2#32
  let v24 : BitVec 32 := Scalar.addi v23 c2_i32
  let v25 : Index := Scalar.indexCast v24
  let arg0 : BitVec 32 := BitVec.ofNat 32 (i 0).val
  let v26 : Index := Scalar.indexCast arg0
  ![v25.toNat, v26.toNat]
def k0_off6 (v27 : BitVec 32) : Fin 4 → Nat :=
  let c0_18 : Index := 0#32
  let c0_19 : Index := 0#32
  let v28 : Index := Scalar.indexCast v27
  let c0_20 : Index := 0#32
  ![0, 0, v28.toNat, 0]

def k0_chk3 (v27 : BitVec 32) : Prop :=
  (∀ a, (k0_off6 v27) a + S1x2x2048x128.size a ≤ S1x2x4096x128.size a)
instance k0_chk3.dec : ∀ (v27 : BitVec 32), Decidable (k0_chk3 v27) := fun v27 => decidable_of_iff' _ (Iff.of_eq (k0_chk3.eq_1 v27))
theorem k0_off6_inb : ∀ (v27 : BitVec 32) (k0_hw3 : k0_chk3 v27), ∀ a, (k0_off6 v27) a + S1x2x2048x128.size a ≤ S1x2x4096x128.size a := fun v27 k0_hw3 => k0_hw3

def k0_off7 (i : grid0.Coords) : Fin 2 → Nat :=
  let arg1 : BitVec 32 := BitVec.ofNat 32 (i 1).val
  let c8_i32_25 : BitVec 32 := 8#32
  let v33 : BitVec 32 := Scalar.muli arg1 c8_i32_25
  let c3_i32 : BitVec 32 := 3#32
  let v34 : BitVec 32 := Scalar.addi v33 c3_i32
  let v35 : Index := Scalar.indexCast v34
  let arg0 : BitVec 32 := BitVec.ofNat 32 (i 0).val
  let v36 : Index := Scalar.indexCast arg0
  ![v35.toNat, v36.toNat]
def k0_off8 (v37 : BitVec 32) : Fin 4 → Nat :=
  let c0_26 : Index := 0#32
  let c0_27 : Index := 0#32
  let v38 : Index := Scalar.indexCast v37
  let c0_28 : Index := 0#32
  ![0, 0, v38.toNat, 0]

def k0_chk4 (v37 : BitVec 32) : Prop :=
  (∀ a, (k0_off8 v37) a + S1x2x2048x128.size a ≤ S1x2x4096x128.size a)
instance k0_chk4.dec : ∀ (v37 : BitVec 32), Decidable (k0_chk4 v37) := fun v37 => decidable_of_iff' _ (Iff.of_eq (k0_chk4.eq_1 v37))
theorem k0_off8_inb : ∀ (v37 : BitVec 32) (k0_hw4 : k0_chk4 v37), ∀ a, (k0_off8 v37) a + S1x2x2048x128.size a ≤ S1x2x4096x128.size a := fun v37 k0_hw4 => k0_hw4

def k0_off9 (i : grid0.Coords) : Fin 2 → Nat :=
  let arg1 : BitVec 32 := BitVec.ofNat 32 (i 1).val
  let c8_i32_33 : BitVec 32 := 8#32
  let v43 : BitVec 32 := Scalar.muli arg1 c8_i32_33
  let c4_i32 : BitVec 32 := 4#32
  let v44 : BitVec 32 := Scalar.addi v43 c4_i32
  let v45 : Index := Scalar.indexCast v44
  let arg0 : BitVec 32 := BitVec.ofNat 32 (i 0).val
  let v46 : Index := Scalar.indexCast arg0
  ![v45.toNat, v46.toNat]
def k0_off10 (v47 : BitVec 32) : Fin 4 → Nat :=
  let c0_34 : Index := 0#32
  let c0_35 : Index := 0#32
  let v48 : Index := Scalar.indexCast v47
  let c0_36 : Index := 0#32
  ![0, 0, v48.toNat, 0]

def k0_chk5 (v47 : BitVec 32) : Prop :=
  (∀ a, (k0_off10 v47) a + S1x2x2048x128.size a ≤ S1x2x4096x128.size a)
instance k0_chk5.dec : ∀ (v47 : BitVec 32), Decidable (k0_chk5 v47) := fun v47 => decidable_of_iff' _ (Iff.of_eq (k0_chk5.eq_1 v47))
theorem k0_off10_inb : ∀ (v47 : BitVec 32) (k0_hw5 : k0_chk5 v47), ∀ a, (k0_off10 v47) a + S1x2x2048x128.size a ≤ S1x2x4096x128.size a := fun v47 k0_hw5 => k0_hw5

def k0_off11 (i : grid0.Coords) : Fin 2 → Nat :=
  let arg1 : BitVec 32 := BitVec.ofNat 32 (i 1).val
  let c8_i32_41 : BitVec 32 := 8#32
  let v53 : BitVec 32 := Scalar.muli arg1 c8_i32_41
  let c5_i32 : BitVec 32 := 5#32
  let v54 : BitVec 32 := Scalar.addi v53 c5_i32
  let v55 : Index := Scalar.indexCast v54
  let arg0 : BitVec 32 := BitVec.ofNat 32 (i 0).val
  let v56 : Index := Scalar.indexCast arg0
  ![v55.toNat, v56.toNat]
def k0_off12 (v57 : BitVec 32) : Fin 4 → Nat :=
  let c0_42 : Index := 0#32
  let c0_43 : Index := 0#32
  let v58 : Index := Scalar.indexCast v57
  let c0_44 : Index := 0#32
  ![0, 0, v58.toNat, 0]

def k0_chk6 (v57 : BitVec 32) : Prop :=
  (∀ a, (k0_off12 v57) a + S1x2x2048x128.size a ≤ S1x2x4096x128.size a)
instance k0_chk6.dec : ∀ (v57 : BitVec 32), Decidable (k0_chk6 v57) := fun v57 => decidable_of_iff' _ (Iff.of_eq (k0_chk6.eq_1 v57))
theorem k0_off12_inb : ∀ (v57 : BitVec 32) (k0_hw6 : k0_chk6 v57), ∀ a, (k0_off12 v57) a + S1x2x2048x128.size a ≤ S1x2x4096x128.size a := fun v57 k0_hw6 => k0_hw6

def k0_off13 (i : grid0.Coords) : Fin 2 → Nat :=
  let arg1 : BitVec 32 := BitVec.ofNat 32 (i 1).val
  let c8_i32_49 : BitVec 32 := 8#32
  let v63 : BitVec 32 := Scalar.muli arg1 c8_i32_49
  let c6_i32 : BitVec 32 := 6#32
  let v64 : BitVec 32 := Scalar.addi v63 c6_i32
  let v65 : Index := Scalar.indexCast v64
  let arg0 : BitVec 32 := BitVec.ofNat 32 (i 0).val
  let v66 : Index := Scalar.indexCast arg0
  ![v65.toNat, v66.toNat]
def k0_off14 (v67 : BitVec 32) : Fin 4 → Nat :=
  let c0_50 : Index := 0#32
  let c0_51 : Index := 0#32
  let v68 : Index := Scalar.indexCast v67
  let c0_52 : Index := 0#32
  ![0, 0, v68.toNat, 0]

def k0_chk7 (v67 : BitVec 32) : Prop :=
  (∀ a, (k0_off14 v67) a + S1x2x2048x128.size a ≤ S1x2x4096x128.size a)
instance k0_chk7.dec : ∀ (v67 : BitVec 32), Decidable (k0_chk7 v67) := fun v67 => decidable_of_iff' _ (Iff.of_eq (k0_chk7.eq_1 v67))
theorem k0_off14_inb : ∀ (v67 : BitVec 32) (k0_hw7 : k0_chk7 v67), ∀ a, (k0_off14 v67) a + S1x2x2048x128.size a ≤ S1x2x4096x128.size a := fun v67 k0_hw7 => k0_hw7

def k0_off15 (i : grid0.Coords) : Fin 2 → Nat :=
  let arg1 : BitVec 32 := BitVec.ofNat 32 (i 1).val
  let c8_i32_57 : BitVec 32 := 8#32
  let v73 : BitVec 32 := Scalar.muli arg1 c8_i32_57
  let c7_i32 : BitVec 32 := 7#32
  let v74 : BitVec 32 := Scalar.addi v73 c7_i32
  let v75 : Index := Scalar.indexCast v74
  let arg0 : BitVec 32 := BitVec.ofNat 32 (i 0).val
  let v76 : Index := Scalar.indexCast arg0
  ![v75.toNat, v76.toNat]
def k0_off16 (v77 : BitVec 32) : Fin 4 → Nat :=
  let c0_58 : Index := 0#32
  let c0_59 : Index := 0#32
  let v78 : Index := Scalar.indexCast v77
  let c0_60 : Index := 0#32
  ![0, 0, v78.toNat, 0]

def k0_chk8 (v77 : BitVec 32) : Prop :=
  (∀ a, (k0_off16 v77) a + S1x2x2048x128.size a ≤ S1x2x4096x128.size a)
instance k0_chk8.dec : ∀ (v77 : BitVec 32), Decidable (k0_chk8 v77) := fun v77 => decidable_of_iff' _ (Iff.of_eq (k0_chk8.eq_1 v77))
theorem k0_off16_inb : ∀ (v77 : BitVec 32) (k0_hw8 : k0_chk8 v77), ∀ a, (k0_off16 v77) a + S1x2x2048x128.size a ≤ S1x2x4096x128.size a := fun v77 k0_hw8 => k0_hw8

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg0.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat, arg0.toNat]

abbrev stage0_0 : Fin 2 → Memref sig .tc .vmem S1x2x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x8x2x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  bcast_S32_S32x1_0 : S32.BroadcastsInDim S32x1 (![0] : Fin 1 → Fin S32x1.rank)
  bcast_S1024_S1x1024_1 : S1024.BroadcastsInDim S1x1024 (![1] : Fin 1 → Fin S1x1024.rank)
  bcast_S32x1_S32x1024_0_1 : S32x1.BroadcastsInDim S32x1024 (![0, 1] : Fin 2 → Fin S32x1024.rank)
  bcast_S1x1024_S32x1024_0_1 : S1x1024.BroadcastsInDim S32x1024 (![0, 1] : Fin 2 → Fin S32x1024.rank)
  bcast_S_S32x1024 : S_.BroadcastsInDim S32x1024 (![] : Fin 0 → Fin S32x1024.rank)
  shapeCasts_S32x1024_S32x8x128 : S32x1024.ShapeCasts S32x8x128
  reducesTo_S32x8x128_S32x8_d2 : S32x8x128.ReducesTo [2] S32x8
  h_S_ : 0 < S_.numel
  bcast_S_S32x8 : S_.BroadcastsInDim S32x8 (![] : Fin 0 → Fin S32x8.rank)
  inb_S1x2x2048x128_S1x2x2048x128_0_0_0_0 : ∀ a, (![0, 0, 0, 0] : Fin 4 → Nat) a + S1x2x2048x128.size a ≤ S1x2x2048x128.size a
  h_S1x2x2048x128 : 0 < S1x2x2048x128.numel
  inb_S1x2x4096x128_S1x2x2048x128_0_0_0_0 : ∀ a, (![0, 0, 0, 0] : Fin 4 → Nat) a + S1x2x2048x128.size a ≤ S1x2x4096x128.size a
  shapeCasts_S1x2x2048x128_S1x2x2048x128 : S1x2x2048x128.ShapeCasts S1x2x2048x128
  inb_S1x2x4096x128_S1x2x2048x128_0_0_2048_0 : ∀ a, (![0, 0, 2048, 0] : Fin 4 → Nat) a + S1x2x2048x128.size a ≤ S1x2x4096x128.size a
  numel1_S1x1 : S1x1.numel = 1
  inb_S1x8x2x2048x128_S1x1x2x2048x128_0_0_0_0_0 : ∀ a, (![0, 0, 0, 0, 0] : Fin 5 → Nat) a + S1x1x2x2048x128.size a ≤ S1x8x2x2048x128.size a
  h_S1x1x2x2048x128 : 0 < S1x1x2x2048x128.numel
  shapeCasts_S1x1x2x2048x128_S1x2x2048x128 : S1x1x2x2048x128.ShapeCasts S1x2x2048x128
  shapeCasts_S1x2x2048x128_S1x1x2x2048x128 : S1x2x2048x128.ShapeCasts S1x1x2x2048x128
  inb_S1x8x2x2048x128_S1x1x2x2048x128_0_1_0_0_0 : ∀ a, (![0, 1, 0, 0, 0] : Fin 5 → Nat) a + S1x1x2x2048x128.size a ≤ S1x8x2x2048x128.size a
  inb_S1x8x2x2048x128_S1x1x2x2048x128_0_2_0_0_0 : ∀ a, (![0, 2, 0, 0, 0] : Fin 5 → Nat) a + S1x1x2x2048x128.size a ≤ S1x8x2x2048x128.size a
  inb_S1x8x2x2048x128_S1x1x2x2048x128_0_3_0_0_0 : ∀ a, (![0, 3, 0, 0, 0] : Fin 5 → Nat) a + S1x1x2x2048x128.size a ≤ S1x8x2x2048x128.size a
  inb_S1x8x2x2048x128_S1x1x2x2048x128_0_4_0_0_0 : ∀ a, (![0, 4, 0, 0, 0] : Fin 5 → Nat) a + S1x1x2x2048x128.size a ≤ S1x8x2x2048x128.size a
  inb_S1x8x2x2048x128_S1x1x2x2048x128_0_5_0_0_0 : ∀ a, (![0, 5, 0, 0, 0] : Fin 5 → Nat) a + S1x1x2x2048x128.size a ≤ S1x8x2x2048x128.size a
  inb_S1x8x2x2048x128_S1x1x2x2048x128_0_6_0_0_0 : ∀ a, (![0, 6, 0, 0, 0] : Fin 5 → Nat) a + S1x1x2x2048x128.size a ≤ S1x8x2x2048x128.size a
  inb_S1x8x2x2048x128_S1x1x2x2048x128_0_7_0_0_0 : ∀ a, (![0, 7, 0, 0, 0] : Fin 5 → Nat) a + S1x1x2x2048x128.size a ≤ S1x8x2x2048x128.size a
  hrank0 : 0 < grid0.rank
  k0_off1_inb : ∀ i : grid0.Coords, ∀ a, (k0_off1 i) a + S1x1.size a ≤ S32x8.size a
  k0_off3_inb : ∀ i : grid0.Coords, ∀ a, (k0_off3 i) a + S1x1.size a ≤ S32x8.size a
  k0_off5_inb : ∀ i : grid0.Coords, ∀ a, (k0_off5 i) a + S1x1.size a ≤ S32x8.size a
  k0_off7_inb : ∀ i : grid0.Coords, ∀ a, (k0_off7 i) a + S1x1.size a ≤ S32x8.size a
  k0_off9_inb : ∀ i : grid0.Coords, ∀ a, (k0_off9 i) a + S1x1.size a ≤ S32x8.size a
  k0_off11_inb : ∀ i : grid0.Coords, ∀ a, (k0_off11 i) a + S1x1.size a ≤ S32x8.size a
  k0_off13_inb : ∀ i : grid0.Coords, ∀ a, (k0_off13 i) a + S1x1.size a ≤ S32x8.size a
  k0_off15_inb : ∀ i : grid0.Coords, ∀ a, (k0_off15 i) a + S1x1.size a ≤ S32x8.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2x2048x128.size a ≤ S1x2x2048x1024.size a
  hwx0_0 : ∀ i : grid0.Coords, EltTy.bits .f32 = 32 ∨ (Rect.block (s := S1x2x2048x1024) S1x2x2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8x2x2048x128.size a ≤ S1x32x2x2048x1024.size a
  hwx0_1 : ∀ i : grid0.Coords, EltTy.bits .f32 = 32 ∨ (Rect.block (s := S1x32x2x2048x1024) S1x8x2x2048x128.size (cc0_transform_1 i) (hinb0_1 i)).WholeWords (EltTy.packing .f32)

variable [Facts₀]

abbrev spec0_0 : Pipeline.WinSpec sig grid0.rank :=
  Pipeline.WinSpec.ofSpec (Memref.whole main_arg0) S1x2x2048x128.size reads0_0 false false 2 stage0_0 sem0_0 nbuf0_0 hstage0_0

abbrev spec0_1 : Pipeline.WinSpec sig grid0.rank :=
  Pipeline.WinSpec.ofSpec (Memref.whole main_v17) S1x8x2x2048x128.size reads0_1 true false 2 stage0_1 sem0_1 nbuf0_1 hstage0_1

abbrev spec0 : Fin 2 → Pipeline.WinSpec sig grid0.rank := fun | 0 => spec0_0 | 1 => spec0_1 | ⟨_ + 2, h⟩ => absurd h (Nat.not_lt.2 (Nat.le_add_left _ _))
theorem hcount0 : ∀ w, grid0.bufCount (spec0 w).reads (spec0 w).sync = (spec0 w).nbuf := fun | 0 => nbuf0_0 | 1 => nbuf0_1 | ⟨_ + 2, h⟩ => absurd h (Nat.not_lt.2 (Nat.le_add_left _ _))
abbrev ix0 (pf : pre0.Contents (Elt F)) : (w : Fin 2) → grid0.Coords → Fin (spec0 w).shape.rank → Nat := fun | 0 => cc0_transform_0 | 1 => cc0_transform_1 | ⟨_ + 2, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | ⟨_ + 2, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | ⟨_ + 2, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | ⟨_ + 2, h⟩ => absurd h (Nat.not_lt.2 (Nat.le_add_left _ _))

class Facts : Prop extends Facts₀ where
  harr0 : ∀ w, (spec0 w).arr.IsWhole

variable [Facts]
-- ==== ReferenceIdeal.lean ====
abbrev S1x2x2048x1024 : Shape := ⟨4, ![1, 2, 2048, 1024]⟩
abbrev S32 : Shape := ⟨1, ![32]⟩
abbrev S1024 : Shape := ⟨1, ![1024]⟩
abbrev S32x1 : Shape := ⟨2, ![32, 1]⟩
abbrev S1x1024 : Shape := ⟨2, ![1, 1024]⟩
abbrev S32x1024 : Shape := ⟨2, ![32, 1024]⟩
abbrev S_ : Shape := ⟨0, ![]⟩
abbrev S32x8x128 : Shape := ⟨3, ![32, 8, 128]⟩
abbrev S32x8 : Shape := ⟨2, ![32, 8]⟩
abbrev S2048 : Shape := ⟨1, ![2048]⟩
abbrev S1x2048x1 : Shape := ⟨3, ![1, 2048, 1]⟩
abbrev S32x1x1024 : Shape := ⟨3, ![32, 1, 1024]⟩
abbrev S32x2048x1024 : Shape := ⟨3, ![32, 2048, 1024]⟩
abbrev S1x1x2x2048x1024 : Shape := ⟨5, ![1, 1, 2, 2048, 1024]⟩
abbrev S1x32x1x2048x1024 : Shape := ⟨5, ![1, 32, 1, 2048, 1024]⟩
abbrev S32x2048x1024x1 : Shape := ⟨4, ![32, 2048, 1024, 1]⟩
abbrev S1 : Shape := ⟨1, ![1]⟩
abbrev S1x1x1x1 : Shape := ⟨4, ![1, 1, 1, 1]⟩
abbrev S1x32x2x2048x1024 : Shape := ⟨5, ![1, 32, 2, 2048, 1024]⟩

abbrev nBuf : Space → Nat
  | .hbm => 84
  | .vmem => 0
  | .smem => 0
  | _ => 0

abbrev bufTy : (tb : Table) → Fin (tcTables nBuf tb) → BufTy
  | .hbm, ⟨0, _⟩ => ⟨S1x2x2048x1024, .f32⟩
  | .hbm, ⟨1, _⟩ => ⟨S32, .f32⟩
  | .hbm, ⟨2, _⟩ => ⟨S1024, .f32⟩
  | .hbm, ⟨3, _⟩ => ⟨S32x1, .f32⟩
  | .hbm, ⟨4, _⟩ => ⟨S1x1024, .f32⟩
  | .hbm, ⟨5, _⟩ => ⟨S32x1024, .f32⟩
  | .hbm, ⟨6, _⟩ => ⟨S32x1024, .f32⟩
  | .hbm, ⟨7, _⟩ => ⟨S32x1024, .f32⟩
  | .hbm, ⟨8, _⟩ => ⟨S_, .f32⟩
  | .hbm, ⟨9, _⟩ => ⟨S32x1024, .f32⟩
  | .hbm, ⟨10, _⟩ => ⟨S32x1024, .f32⟩
  | .hbm, ⟨11, _⟩ => ⟨S32x1024, .f32⟩
  | .hbm, ⟨12, _⟩ => ⟨S_, .f32⟩
  | .hbm, ⟨13, _⟩ => ⟨S32x1024, .f32⟩
  | .hbm, ⟨14, _⟩ => ⟨S32x1024, .f32⟩
  | .hbm, ⟨15, _⟩ => ⟨S32x8x128, .f32⟩
  | .hbm, ⟨16, _⟩ => ⟨S_, .f32⟩
  | .hbm, ⟨17, _⟩ => ⟨S32x8, .f32⟩
  | .hbm, ⟨18, _⟩ => ⟨S_, .f32⟩
  | .hbm, ⟨19, _⟩ => ⟨S32x8, .f32⟩
  | .hbm, ⟨20, _⟩ => ⟨S32x8, .f32⟩
  | .hbm, ⟨21, _⟩ => ⟨S_, .f32⟩
  | .hbm, ⟨22, _⟩ => ⟨S32x8, .f32⟩
  | .hbm, ⟨23, _⟩ => ⟨S32x8, .i1⟩
  | .hbm, ⟨24, _⟩ => ⟨S32x8, .f32⟩
  | .hbm, ⟨25, _⟩ => ⟨S32x8, .f32⟩
  | .hbm, ⟨26, _⟩ => ⟨S32x8, .f32⟩
  | .hbm, ⟨27, _⟩ => ⟨S32x8, .i32⟩
  | .hbm, ⟨28, _⟩ => ⟨S32x8x128, .i32⟩
  | .hbm, ⟨29, _⟩ => ⟨S32x1024, .i32⟩
  | .hbm, ⟨30, _⟩ => ⟨S2048, .i32⟩
  | .hbm, ⟨31, _⟩ => ⟨S1x2048x1, .i32⟩
  | .hbm, ⟨32, _⟩ => ⟨S32x1x1024, .i32⟩
  | .hbm, ⟨33, _⟩ => ⟨S32x2048x1024, .i32⟩
  | .hbm, ⟨34, _⟩ => ⟨S32x2048x1024, .i32⟩
  | .hbm, ⟨35, _⟩ => ⟨S32x2048x1024, .i32⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S_, .i1⟩
  | .hbm, ⟨40, _⟩ => ⟨S_, .i32⟩
  | .hbm, ⟨41, _⟩ => ⟨S_, .i32⟩
  | .hbm, ⟨42, _⟩ => ⟨S32x2048x1024, .i32⟩
  | .hbm, ⟨43, _⟩ => ⟨S32x2048x1024, .i32⟩
  | .hbm, ⟨44, _⟩ => ⟨S_, .i32⟩
  | .hbm, ⟨45, _⟩ => ⟨S32x2048x1024, .i32⟩
  | .hbm, ⟨46, _⟩ => ⟨S32x2048x1024, .i1⟩
  | .hbm, ⟨47, _⟩ => ⟨S_, .i32⟩
  | .hbm, ⟨48, _⟩ => ⟨S32x2048x1024, .i32⟩
  | .hbm, ⟨49, _⟩ => ⟨S32x2048x1024, .i1⟩
  | .hbm, ⟨50, _⟩ => ⟨S_, .i32⟩
  | .hbm, ⟨51, _⟩ => ⟨S_, .i1⟩
  | .hbm, ⟨52, _⟩ => ⟨S32x2048x1024, .i1⟩
  | .hbm, ⟨53, _⟩ => ⟨S32x2048x1024, .i1⟩
  | .hbm, ⟨54, _⟩ => ⟨S32x2048x1024, .i1⟩
  | .hbm, ⟨55, _⟩ => ⟨S32x2048x1024, .i32⟩
  | .hbm, ⟨56, _⟩ => ⟨S32x2048x1024, .i32⟩
  | .hbm, ⟨57, _⟩ => ⟨S32x2048x1024, .i32⟩
  | .hbm, ⟨58, _⟩ => ⟨S1x1x2x2048x1024, .f32⟩
  | .hbm, ⟨59, _⟩ => ⟨S1x32x1x2048x1024, .i32⟩
  | .hbm, ⟨60, _⟩ => ⟨S_, .i32⟩
  | .hbm, ⟨61, _⟩ => ⟨S1x32x1x2048x1024, .i32⟩
  | .hbm, ⟨62, _⟩ => ⟨S1x32x1x2048x1024, .i1⟩
  | .hbm, ⟨63, _⟩ => ⟨S_, .i32⟩
  | .hbm, ⟨64, _⟩ => ⟨S1x32x1x2048x1024, .i32⟩
  | .hbm, ⟨65, _⟩ => ⟨S1x32x1x2048x1024, .i32⟩
  | .hbm, ⟨66, _⟩ => ⟨S1x32x1x2048x1024, .i32⟩
  | .hbm, ⟨67, _⟩ => ⟨S32x2048x1024x1, .i32⟩
  | .hbm, ⟨68, _⟩ => ⟨S1x2x2048x1024, .f32⟩
  | .hbm, ⟨69, _⟩ => ⟨S1, .i32⟩
  | .hbm, ⟨70, _⟩ => ⟨S_, .i32⟩
  | .hbm, ⟨71, _⟩ => ⟨S32x2048x1024x1, .i32⟩
  | .hbm, ⟨72, _⟩ => ⟨S32x2048x1024x1, .i1⟩
  | .hbm, ⟨73, _⟩ => ⟨S1x1x1x1, .i32⟩
  | .hbm, ⟨74, _⟩ => ⟨S32x2048x1024x1, .i32⟩
  | .hbm, ⟨75, _⟩ => ⟨S32x2048x1024x1, .i1⟩
  | .hbm, ⟨76, _⟩ => ⟨S32x2048x1024x1, .i1⟩
  | .hbm, ⟨77, _⟩ => ⟨S_, .i1⟩
  | .hbm, ⟨78, _⟩ => ⟨S32x2048x1024, .i1⟩
  | .hbm, ⟨79, _⟩ => ⟨S1x32x2x2048x1024, .f32⟩
  | .hbm, ⟨80, _⟩ => ⟨S1x32x2x2048x1024, .i1⟩
  | .hbm, ⟨81, _⟩ => ⟨S_, .f32⟩
  | .hbm, ⟨82, _⟩ => ⟨S1x32x2x2048x1024, .f32⟩
  | .hbm, ⟨83, _⟩ => ⟨S1x32x2x2048x1024, .f32⟩
  | _, _ => ⟨S1x2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_call0_cst : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c : Ref sig .tc := ⟨.hbm, 36, rfl⟩
abbrev main_call1_v0 : Ref sig .tc := ⟨.hbm, 37, rfl⟩
abbrev main_call1_c : Ref sig .tc := ⟨.hbm, 38, rfl⟩
abbrev main_call1_v1 : Ref sig .tc := ⟨.hbm, 39, rfl⟩
abbrev main_call1_c_0 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_c_1 : Ref sig .tc := ⟨.hbm, 44, rfl⟩
abbrev main_call1_v5 : Ref sig .tc := ⟨.hbm, 45, rfl⟩
abbrev main_call1_v6 : Ref sig .tc := ⟨.hbm, 46, rfl⟩
abbrev main_call1_c_2 : Ref sig .tc := ⟨.hbm, 47, rfl⟩
abbrev main_call1_v7 : Ref sig .tc := ⟨.hbm, 48, rfl⟩
abbrev main_call1_v8 : Ref sig .tc := ⟨.hbm, 49, rfl⟩
abbrev main_call1_c_3 : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_call1_v12 : Ref sig .tc := ⟨.hbm, 54, rfl⟩
abbrev main_call1_v13 : Ref sig .tc := ⟨.hbm, 55, rfl⟩
abbrev main_call1_v14 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_call2_c : Ref sig .tc := ⟨.hbm, 60, rfl⟩
abbrev main_call2_v0 : Ref sig .tc := ⟨.hbm, 61, rfl⟩
abbrev main_call2_v1 : Ref sig .tc := ⟨.hbm, 62, rfl⟩
abbrev main_call2_c_0 : Ref sig .tc := ⟨.hbm, 63, rfl⟩
abbrev main_call2_v2 : Ref sig .tc := ⟨.hbm, 64, rfl⟩
abbrev main_call2_v3 : Ref sig .tc := ⟨.hbm, 65, rfl⟩
abbrev main_call2_v4 : Ref sig .tc := ⟨.hbm, 66, rfl⟩
abbrev main_call2_v5 : Ref sig .tc := ⟨.hbm, 67, rfl⟩
abbrev main_call2_v6 : Ref sig .tc := ⟨.hbm, 68, rfl⟩
abbrev main_call2_c_1 : Ref sig .tc := ⟨.hbm, 69, rfl⟩
abbrev main_call2_c_2 : Ref sig .tc := ⟨.hbm, 70, rfl⟩
abbrev main_call2_v7 : Ref sig .tc := ⟨.hbm, 71, rfl⟩
abbrev main_call2_v8 : Ref sig .tc := ⟨.hbm, 72, rfl⟩
abbrev main_call2_v9 : Ref sig .tc := ⟨.hbm, 73, rfl⟩
abbrev main_call2_v10 : Ref sig .tc := ⟨.hbm, 74, rfl⟩
abbrev main_call2_v11 : Ref sig .tc := ⟨.hbm, 75, rfl⟩
abbrev main_call2_v12 : Ref sig .tc := ⟨.hbm, 76, rfl⟩
abbrev main_call2_c_3 : Ref sig .tc := ⟨.hbm, 77, rfl⟩
abbrev main_call2_v13 : Ref sig .tc := ⟨.hbm, 78, rfl⟩
abbrev main_call2_v14 : Ref sig .tc := ⟨.hbm, 79, rfl⟩
abbrev main_call2_v15 : Ref sig .tc := ⟨.hbm, 80, rfl⟩
abbrev main_call2_cst : Ref sig .tc := ⟨.hbm, 81, rfl⟩
abbrev main_call2_v16 : Ref sig .tc := ⟨.hbm, 82, rfl⟩
abbrev main_v27 : Ref sig .tc := ⟨.hbm, 83, rfl⟩

abbrev nD : Nat := 1
abbrev τ : Topo := Topo.v7x

variable {F : FTy → Type} [FloatOps F]

class Facts₀ : Prop where
  bcast_S32_S32x1_0 : S32.BroadcastsInDim S32x1 (![0] : Fin 1 → Fin S32x1.rank)
  bcast_S1024_S1x1024_1 : S1024.BroadcastsInDim S1x1024 (![1] : Fin 1 → Fin S1x1024.rank)
  bcast_S32x1_S32x1024_0_1 : S32x1.BroadcastsInDim S32x1024 (![0, 1] : Fin 2 → Fin S32x1024.rank)
  bcast_S1x1024_S32x1024_0_1 : S1x1024.BroadcastsInDim S32x1024 (![0, 1] : Fin 2 → Fin S32x1024.rank)
  bcast_S_S32x1024 : S_.BroadcastsInDim S32x1024 (![] : Fin 0 → Fin S32x1024.rank)
  shapeCasts_S32x1024_S32x8x128 : S32x1024.ShapeCasts S32x8x128
  reducesTo_S32x8x128_S32x8_d2 : S32x8x128.ReducesTo [2] S32x8
  h_S_ : 0 < S_.numel
  bcast_S_S32x8 : S_.BroadcastsInDim S32x8 (![] : Fin 0 → Fin S32x8.rank)
  bcast_S32x8_S32x8x128_0_1 : S32x8.BroadcastsInDim S32x8x128 (![0, 1] : Fin 2 → Fin S32x8x128.rank)
  shapeCasts_S32x8x128_S32x1024 : S32x8x128.ShapeCasts S32x1024
  bcast_S2048_S1x2048x1_1 : S2048.BroadcastsInDim S1x2048x1 (![1] : Fin 1 → Fin S1x2048x1.rank)
  bcast_S32x1024_S32x1x1024_0_2 : S32x1024.BroadcastsInDim S32x1x1024 (![0, 2] : Fin 2 → Fin S32x1x1024.rank)
  bcast_S1x2048x1_S32x2048x1024_0_1_2 : S1x2048x1.BroadcastsInDim S32x2048x1024 (![0, 1, 2] : Fin 3 → Fin S32x2048x1024.rank)
  bcast_S32x1x1024_S32x2048x1024_0_1_2 : S32x1x1024.BroadcastsInDim S32x2048x1024 (![0, 1, 2] : Fin 3 → Fin S32x2048x1024.rank)
  bcast_S_S32x2048x1024 : S_.BroadcastsInDim S32x2048x1024 (![] : Fin 0 → Fin S32x2048x1024.rank)
  bcast_S1x2x2048x1024_S1x1x2x2048x1024_0_2_3_4 : S1x2x2048x1024.BroadcastsInDim S1x1x2x2048x1024 (![0, 2, 3, 4] : Fin 4 → Fin S1x1x2x2048x1024.rank)
  bcast_S32x2048x1024_S1x32x1x2048x1024_1_3_4 : S32x2048x1024.BroadcastsInDim S1x32x1x2048x1024 (![1, 3, 4] : Fin 3 → Fin S1x32x1x2048x1024.rank)
  bcast_S_S1x32x1x2048x1024 : S_.BroadcastsInDim S1x32x1x2048x1024 (![] : Fin 0 → Fin S1x32x1x2048x1024.rank)
  shapeCasts_S1x32x1x2048x1024_S32x2048x1024x1 : S1x32x1x2048x1024.ShapeCasts S32x2048x1024x1
  shapeCasts_S1x1x2x2048x1024_S1x2x2048x1024 : S1x1x2x2048x1024.ShapeCasts S1x2x2048x1024
  bcast_S_S32x2048x1024x1 : S_.BroadcastsInDim S32x2048x1024x1 (![] : Fin 0 → Fin S32x2048x1024x1.rank)
  bcast_S1_S1x1x1x1_3 : S1.BroadcastsInDim S1x1x1x1 (![3] : Fin 1 → Fin S1x1x1x1.rank)
  bcast_S1x1x1x1_S32x2048x1024x1_0_1_2_3 : S1x1x1x1.BroadcastsInDim S32x2048x1024x1 (![0, 1, 2, 3] : Fin 4 → Fin S32x2048x1024x1.rank)
  reducesTo_S32x2048x1024x1_S32x2048x1024_d3 : S32x2048x1024x1.ReducesTo [3] S32x2048x1024
  bcast_S32x2048x1024_S1x32x2x2048x1024_1_3_4 : S32x2048x1024.BroadcastsInDim S1x32x2x2048x1024 (![1, 3, 4] : Fin 3 → Fin S1x32x2x2048x1024.rank)
  bcast_S_S1x32x2x2048x1024 : S_.BroadcastsInDim S1x32x2x2048x1024 (![] : Fin 0 → Fin S1x32x2x2048x1024.rank)
  gather_S1x2x2048x1024_S32x2048x1024x1_S1x32x2x2048x1024_02_2_3_2_2_3_1211_wf : GatherDims.WF S1x2x2048x1024 S32x2048x1024x1 S1x32x2x2048x1024 [0, 2] [2] [3] [2] [2] 3 ![1, 2, 1, 1]

variable [Facts₀]

def gather_S1x2x2048x1024_S32x2048x1024x1_S1x32x2x2048x1024_02_2_3_2_2_3_1211 : GatherDims S1x2x2048x1024 S32x2048x1024x1 S1x32x2x2048x1024 where
  offsetDims := [0, 2]
  collapsedSliceDims := [2]
  operandBatchingDims := [3]
  startIndicesBatchingDims := [2]
  startIndexMap := [2]
  indexVectorDim := 3
  sliceSizes := ![1, 2, 1, 1]
  wf := gather_S1x2x2048x1024_S32x2048x1024x1_S1x32x2x2048x1024_02_2_3_2_2_3_1211_wf

class Facts : Prop extends Facts₀ where

variable [Facts]
-- ==== Proof.Spec.lean ====
/-
  The mathematics both programs share, as pure functions of the three argument arrays: a spectrogram
  `x[1, pol, time, freq]`, the dispersion measures `dm[32]` and the per-channel scale `fs[1024]`.

  * `delays dm fs` — the delay table `500 · tanh(dm[d] · fs[f] / 1000)`, entry by entry (also the second result of
    both programs).
  * `avgInt dm fs` — per dispersion measure and per chunk of 128 channels, the mean delay truncated toward zero
    (the ceiling below zero, the floor otherwise) and converted to a 32-bit word.
  * `floorMod s hb a n` — the remainder of each word of `a` by the scalar `n` with the sign of the divisor: the
    remainder of the dividend's sign, plus `n` where that remainder is non-zero and of the other sign.
  * `shiftTab dm fs` — `avgInt` reduced so to `[0, 2048)`: the time offset each (measure, chunk) pair is rolled by.
  * `gatherIdx a` — for each (measure, time, channel): `time + a[measure, channel / 128]`, reduced to `[0, 2048)`.
  * `takeAlong x idx` — `x` gathered along its time axis at `idx`: a negative index moved up by 2048, the gather
    clamped into the axis, and an entry whose index is outside `[0, 2047]` replaced by the not-a-number word.
  * `rolled x sh` — the result stated directly: entry `(0, d, p, t, f)` is `x (0, p, (sh[d, f / 128] + t) mod 2048, f)`.
-/
import Idealize.ShloMosaic.PureOps
import Idealize.ShloMosaic.Lib.ValueIdx

noncomputable section

namespace Cert.Dedisp

open Idealize.ShloMosaic Idealize.ShloMosaic.ValueIdx

abbrev S1x2x2048x1024 : Shape := ⟨4, ![1, 2, 2048, 1024]⟩
abbrev S32 : Shape := ⟨1, ![32]⟩
abbrev S1024 : Shape := ⟨1, ![1024]⟩
abbrev S32x1 : Shape := ⟨2, ![32, 1]⟩
abbrev S1x1024 : Shape := ⟨2, ![1, 1024]⟩
abbrev S32x1024 : Shape := ⟨2, ![32, 1024]⟩
abbrev S_ : Shape := ⟨0, ![]⟩
abbrev S32x8x128 : Shape := ⟨3, ![32, 8, 128]⟩
abbrev S32x8 : Shape := ⟨2, ![32, 8]⟩
abbrev S2048 : Shape := ⟨1, ![2048]⟩
abbrev S1x2048x1 : Shape := ⟨3, ![1, 2048, 1]⟩
abbrev S32x1x1024 : Shape := ⟨3, ![32, 1, 1024]⟩
abbrev S32x2048x1024 : Shape := ⟨3, ![32, 2048, 1024]⟩
abbrev S1x1x2x2048x1024 : Shape := ⟨5, ![1, 1, 2, 2048, 1024]⟩
abbrev S1x32x1x2048x1024 : Shape := ⟨5, ![1, 32, 1, 2048, 1024]⟩
abbrev S32x2048x1024x1 : Shape := ⟨4, ![32, 2048, 1024, 1]⟩
abbrev S1 : Shape := ⟨1, ![1]⟩
abbrev S1x1x1x1 : Shape := ⟨4, ![1, 1, 1, 1]⟩
abbrev S1x32x2x2048x1024 : Shape := ⟨5, ![1, 32, 2, 2048, 1024]⟩

variable {F : FTy → Type} [FloatOps F]

/-- The delay table: `500 · tanh(dm[d] · fs[f] / 1000)` at `(d, f)`. -/
def delays (dm : FVec F S32 .f32) (fs : FVec F S1024 .f32) : FVec F S32x1024 .f32 :=
  mulf
    (Host.tanh
      (Host.divf
        (mulf
          (broadcastInDim S32x1024 ![0, 1] (by decide) (broadcastInDim S32x1 ![0] (by decide) dm))
          (broadcastInDim S32x1024 ![0, 1] (by decide) (broadcastInDim S1x1024 ![1] (by decide) fs)))
        (broadcastInDim S32x1024 ![] (by decide) (constant S_ .f32 0x447A0000#32))))
    (broadcastInDim S32x1024 ![] (by decide) (constant S_ .f32 0x43FA0000#32))

/-- The mean delay of each chunk of 128 channels: the chunk's sum over 128. -/
def chunkMean (dm : FVec F S32 .f32) (fs : FVec F S1024 .f32) : FVec F S32x8 .f32 :=
  Host.divf
    (Host.reduceAdd (shapeCast S32x8x128 (delays dm fs) (by decide)) (constant S_ .f32 0x00000000#32)
      (by decide : S32x8x128.ReducesTo [2] S32x8) (by decide))
    (broadcastInDim S32x8 ![] (by decide) (constant S_ .f32 0x43000000#32))

/-- The chunk means truncated toward zero, as 32-bit words. -/
def avgInt (dm : FVec F S32 .f32) (fs : FVec F S1024 .f32) : IVec S32x8 32 :=
  fptosi 32
    (select
      (cmpf .olt (chunkMean dm fs) (broadcastInDim S32x8 ![] (by decide) (constant S_ .f32 0x00000000#32)))
      (Host.ceil (chunkMean dm fs)) (Host.floor (chunkMean dm fs)))

/-- The divisor a remainder is taken by: `1` in place of `0`. -/
def safeDivisor (n : IVec S_ 32) : IVec S_ 32 :=
  select (cmpi .eq n (constantI S_ 32 0#32)) (constantI S_ 32 1#32) n

/-- The remainder with the divisor's sign, word by word: the truncating remainder `r`, moved up by the divisor
    where `r ≠ 0` and the signs of `r` and of the divisor differ. -/
def floorMod (s : Shape) (hb : S_.BroadcastsInDim s (![] : Fin 0 → Fin s.rank)) (a : IVec s 32) (n : IVec S_ 32) : IVec s 32 :=
  select
    (andi
      (cmpi .ne
        (cmpi .slt (Host.remsi a (broadcastInDim s ![] hb (safeDivisor n))) (broadcastInDim s ![] hb (constantI S_ 32 0#32)))
        (broadcastInDim s ![] hb (cmpi .slt (safeDivisor n) (constantI S_ 32 0#32))))
      (cmpi .ne (Host.remsi a (broadcastInDim s ![] hb (safeDivisor n))) (broadcastInDim s ![] hb (constantI S_ 32 0#32))))
    (addi (Host.remsi a (broadcastInDim s ![] hb (safeDivisor n))) (broadcastInDim s ![] hb (safeDivisor n)))
    (Host.remsi a (broadcastInDim s ![] hb (safeDivisor n)))

/-- The time offsets: the truncated means reduced to `[0, 2048)`. -/
def shiftTab (dm : FVec F S32 .f32) (fs : FVec F S1024 .f32) : IVec S32x8 32 :=
  floorMod S32x8 (by decide) (avgInt dm fs) (constantI S_ 32 2048#32)

/-- The gather's indices: `(time + a[measure, channel / 128])` reduced to `[0, 2048)`, per (measure, time, channel). -/
def gatherIdx (a : IVec S32x8 32) : IVec S32x2048x1024 32 :=
  floorMod S32x2048x1024 (by decide)
    (addi
      (broadcastInDim S32x2048x1024 ![0, 1, 2] (by decide) (broadcastInDim S1x2048x1 ![1] (by decide) (iotaInDim S2048 32 0)))
      (broadcastInDim S32x2048x1024 ![0, 1, 2] (by decide)
        (broadcastInDim S32x1x1024 ![0, 2] (by decide)
          (shapeCast S32x1024 (broadcastInDim S32x8x128 ![0, 1] (by decide) a) (by decide)))))
    (constantI S_ 32 2048#32)

/-- The dimension numbers of a gather along the time axis of `x[1, pol, time, freq]` by one index per
    (measure, time, channel): the channel axis batched, the time axis collapsed, the two others whole. -/
abbrev alongTime : GatherDims S1x2x2048x1024 S32x2048x1024x1 S1x32x2x2048x1024 where
  offsetDims := [0, 2]
  collapsedSliceDims := [2]
  operandBatchingDims := [3]
  startIndicesBatchingDims := [2]
  startIndexMap := [2]
  indexVectorDim := 3
  sliceSizes := ![1, 2, 1, 1]
  wf := by decide

/-- The indices as the gather reads them: a negative one moved up by the axis' length. -/
def wrapIdx (idx : IVec S32x2048x1024 32) : IVec S32x2048x1024x1 32 :=
  shapeCast S32x2048x1024x1
    (select
      (cmpi .slt (broadcastInDim S1x32x1x2048x1024 ![1, 3, 4] (by decide) idx)
        (broadcastInDim S1x32x1x2048x1024 ![] (by decide) (constantI S_ 32 0#32)))
      (addi (broadcastInDim S1x32x1x2048x1024 ![1, 3, 4] (by decide) idx)
        (broadcastInDim S1x32x1x2048x1024 ![] (by decide) (constantI S_ 32 2048#32)))
      (broadcastInDim S1x32x1x2048x1024 ![1, 3, 4] (by decide) idx))
    (by decide)

/-- `x` gathered along its time axis at `idx`, an entry whose (wrapped) index is outside `[0, 2047]` replaced by the
    not-a-number word. -/
def takeAlong (x : FVec F S1x2x2048x1024 .f32) (idx : IVec S32x2048x1024 32) : FVec F S1x32x2x2048x1024 .f32 :=
  select
    (broadcastInDim S1x32x2x2048x1024 ![1, 3, 4] (by decide)
      (Host.reduce IntOp.andi
        (andi
          (cmpi .sge (wrapIdx idx) (broadcastInDim S32x2048x1024x1 ![] (by decide) (constantI S_ 32 0#32)))
          (cmpi .sle (wrapIdx idx)
            (broadcastInDim S32x2048x1024x1 ![0, 1, 2, 3] (by decide)
              (broadcastInDim S1x1x1x1 ![3] (by decide) (constantI S1 32 2047#32)))))
        (constantI S_ 1 1#1) (by decide : S32x2048x1024x1.ReducesTo [3] S32x2048x1024) (by decide)))
    (Host.gather alongTime
      (shapeCast S1x2x2048x1024 (broadcastInDim S1x1x2x2048x1024 ![0, 2, 3, 4] (by decide) x) (by decide))
      (wrapIdx idx))
    (broadcastInDim S1x32x2x2048x1024 ![] (by decide) (constant S_ .f32 0x7FC00000#32))

/-- The rolled spectrogram: entry `(0, d, p, t, f)` is `x` at time `(sh[d, f / 128] + t) mod 2048`. -/
def rolled (x : FVec F S1x2x2048x1024 .f32) (sh : IVec S32x8 32) : FVec F S1x32x2x2048x1024 .f32 :=
  fun j => x (ix4 (0 : Fin 1) (⟨(j 2).val, (j 2).isLt⟩ : Fin 2)
    (⟨((sh (ix2 (⟨(j 1).val, (j 1).isLt⟩ : Fin 32) (⟨(j 4).val / 128, by have := (j 4).isLt; change (j 4).val < 1024 at this; omega⟩ : Fin 8))).toNat + (j 3).val) % 2048,
      Nat.mod_lt _ (by decide)⟩ : Fin 2048)
    (⟨(j 4).val, (j 4).isLt⟩ : Fin 1024))

end Cert.Dedisp

end
-- ==== Proof.WordMod.lean ====
/-
  Word arithmetic behind the two index computations. A 32-bit word `a` read as a two's-complement integer and
  reduced modulo 2048 with the divisor's sign is its low eleven bits: 2048 divides 2^32, so the signed and the
  unsigned readings of `a` leave the same remainder. Hence the kernel's offset `a mod 2048` and the reference's
  index `(t + a) mod 2048` are both plain remainders of natural numbers.
-/
import proofs.«416176_j68745246540395_3_alg».proof.Proof.Spec
import Idealize.ShloMosaic.Lib.Pipeline.Value

noncomputable section

namespace Cert.Dedisp

open Idealize.ShloMosaic Idealize.ShloMosaic.ValueIdx

variable {F : FTy → Type} [FloatOps F]

/-- The truncating remainder by 2048 as an integer: the ordinary remainder for a non-negative dividend,
    minus the remainder of the negated dividend otherwise. -/
private theorem srem2048_toInt (a : BitVec 32) :
    (a.srem 2048#32).toInt = if 0 ≤ a.toInt then a.toInt % 2048 else -((-a.toInt) % 2048) := by
  rw [BitVec.toInt_srem]
  have h2048 : (2048#32 : BitVec 32).toInt = 2048 := by decide
  rw [h2048]
  split
  · rename_i h
    exact Int.tmod_eq_emod_of_nonneg h
  · rename_i h
    have h1 : a.toInt.tmod 2048 = -((-a.toInt).tmod 2048) := by
      rw [Int.neg_tmod, Int.neg_neg]
    rw [h1, Int.tmod_eq_emod_of_nonneg (by omega)]

/-- The remainder with the divisor's sign at one word, divisor 2048: the word's low eleven bits. -/
private theorem floorModWord_toNat (a : BitVec 32) :
    (Scalar.select
      (IntOp.andi
        (IntOp.cmpi .ne (IntOp.cmpi .slt (a.srem 2048#32) 0#32) (IntOp.cmpi .slt (2048#32) 0#32))
        (IntOp.cmpi .ne (a.srem 2048#32) 0#32))
      (IntOp.addi (a.srem 2048#32) 2048#32) (a.srem 2048#32)).toNat = a.toNat % 2048 := by
  have hr := srem2048_toInt a
  have hA := BitVec.toInt_eq_toNat_cond a
  have hR := BitVec.toInt_eq_toNat_cond (a.srem 2048#32)
  generalize a.srem 2048#32 = r at *
  have hlt := a.isLt
  have hrlt := r.isLt
  have h0 : (0#32 : BitVec 32).toInt = 0 := by decide
  have hd : (2048#32 : BitVec 32).slt 0#32 = false := by decide
  have hsl := @BitVec.slt_iff_toInt_lt 32 r 0#32
  rw [h0] at hsl
  have h2048n : (2048#32 : BitVec 32).toNat = 2048 := by decide
  cases hs : r.slt 0#32 <;> cases hz : (r != 0#32)
  all_goals simp only [Scalar.select, IntOp.andi, IntOp.cmpi, IntOp.addi, hs, hz, hd]
  · rw [if_neg (by decide)]
    have hnn : ¬ r.toInt < 0 := by rw [← hsl, hs]; decide
    split at hA <;> split at hR <;> split at hr <;> omega
  · rw [if_neg (by decide)]
    have hnn : ¬ r.toInt < 0 := by rw [← hsl, hs]; decide
    split at hA <;> split at hR <;> split at hr <;> omega
  · exfalso
    have hr0 : r = 0#32 := by simpa using hz
    rw [hr0] at hs
    exact absurd hs (by decide)
  · rw [if_pos (by decide), BitVec.toNat_add, h2048n]
    have hng : r.toInt < 0 := hsl.mp hs
    split at hA <;> split at hR <;> split at hr <;> omega

/-- The divisor 2048 is neither zero nor minus one, so the remainder is the plain truncating one. -/
private theorem remsi_2048 (u : ArithUnit) (x : BitVec 32) : IntOp.remsi u x 2048#32 = x.srem 2048#32 := by
  unfold IntOp.remsi
  rw [if_neg]
  intro h
  rcases h with h | ⟨_, h⟩
  · exact absurd h (by decide)
  · exact absurd h (by decide)

/-- The guarded divisor of 2048 is 2048. -/
private theorem safeDivisor_2048 (j : S_.Idx) : safeDivisor (constantI S_ 32 2048#32) j = 2048#32 := by
  show Scalar.select (IntOp.cmpi .eq 2048#32 0#32) 1#32 2048#32 = 2048#32
  decide

/-- The remainder by 2048 with the divisor's sign, at one entry: as a natural number, the word's value mod 2048. -/
theorem floorMod_2048_toNat (s : Shape) (hb : S_.BroadcastsInDim s (![] : Fin 0 → Fin s.rank)) (a : IVec s 32) (i : s.Idx) :
    (floorMod s hb a (constantI S_ 32 2048#32) i).toNat = (a i).toNat % 2048 := by
  have key := floorModWord_toNat (a i)
  simp only [floorMod, select, andi, cmpi, addi, Host.remsi, broadcastInDim, safeDivisor_2048, remsi_2048]
  simp only [constantI]
  exact key

/-- Each time offset is the truncated mean's word mod 2048. -/
theorem shiftTab_toNat (dm : FVec F S32 .f32) (fs : FVec F S1024 .f32) (k : S32x8.Idx) :
    (shiftTab dm fs k).toNat = (avgInt dm fs k).toNat % 2048 := by
  exact floorMod_2048_toNat S32x8 _ (avgInt dm fs) k

/-- Each time offset is below 2048. -/
theorem shiftTab_lt (dm : FVec F S32 .f32) (fs : FVec F S1024 .f32) (k : S32x8.Idx) :
    (shiftTab dm fs k).toNat < 2048 := by
  rw [shiftTab_toNat]
  exact Nat.mod_lt _ (by decide)

/-- The reference's gather index at (measure `d`, time `t`, channel `f`): `(t + a[d, f / 128]) mod 2048`. -/
theorem gatherIdx_toNat (a : IVec S32x8 32) (d : Fin 32) (t : Fin 2048) (f : Fin 1024) :
    (gatherIdx a (ix3 d t f)).toNat
      = (t.val + (a (ix2 d (⟨f.val / 128, by have := f.isLt; omega⟩ : Fin 8))).toNat) % 2048 := by
  unfold gatherIdx
  rw [floorMod_2048_toNat]
  -- the time summand: the iota along the time axis, read at time `t`
  have h1 : broadcastInDim S32x2048x1024 ![0, 1, 2] (by decide)
      (broadcastInDim S1x2048x1 ![1] (by decide) (iotaInDim S2048 32 0)) (ix3 d t f) = BitVec.ofNat 32 t.val := by
    refine (broadcastInDim_apply _ _ _ (ix3 d t f) (ix3 (0 : Fin 1) t (0 : Fin 1)) ?_).trans ?_
    · intro b; match b with | ⟨0, _⟩ => rfl | ⟨1, _⟩ => rfl | ⟨2, _⟩ => rfl
    refine (broadcastInDim_apply _ _ _ (ix3 (0 : Fin 1) t (0 : Fin 1)) (ix1 t) ?_).trans rfl
    intro b; match b with | ⟨0, _⟩ => rfl
  -- the offset summand: channel `f` sits in chunk `f / 128` at place `f % 128` of the row-major regrouping
  have h2 : broadcastInDim S32x2048x1024 ![0, 1, 2] (by decide)
      (broadcastInDim S32x1x1024 ![0, 2] (by decide)
        (shapeCast S32x1024 (broadcastInDim S32x8x128 ![0, 1] (by decide) a) (by decide))) (ix3 d t f)
      = a (ix2 d (⟨f.val / 128, by have := f.isLt; omega⟩ : Fin 8)) := by
    refine (broadcastInDim_apply _ _ _ (ix3 d t f) (ix3 d (0 : Fin 1) f) ?_).trans ?_
    · intro b; match b with | ⟨0, _⟩ => rfl | ⟨1, _⟩ => rfl | ⟨2, _⟩ => rfl
    refine (broadcastInDim_apply _ _ _ (ix3 d (0 : Fin 1) f) (ix2 d f) ?_).trans ?_
    · intro b; match b with | ⟨0, _⟩ => rfl | ⟨1, _⟩ => rfl
    refine (shapeCast_apply _ _ (ix2 d f)
      (ix3 d (⟨f.val / 128, by have := f.isLt; omega⟩ : Fin 8) (⟨f.val % 128, Nat.mod_lt _ (by decide)⟩ : Fin 128)) ?_).trans ?_
    · rw [Shape.rowMajor_val_three, Shape.rowMajor_val_two]
      show (d.val * 8 + f.val / 128) * 128 + f.val % 128 = d.val * 1024 + f.val
      omega
    refine (broadcastInDim_apply _ _ _ _ (ix2 d (⟨f.val / 128, by have := f.isLt; omega⟩ : Fin 8)) ?_).trans rfl
    intro b; match b with | ⟨0, _⟩ => rfl | ⟨1, _⟩ => rfl
  show ((broadcastInDim S32x2048x1024 ![0, 1, 2] (by decide)
      (broadcastInDim S1x2048x1 ![1] (by decide) (iotaInDim S2048 32 0)) (ix3 d t f))
    + (broadcastInDim S32x2048x1024 ![0, 1, 2] (by decide)
      (broadcastInDim S32x1x1024 ![0, 2] (by decide)
        (shapeCast S32x1024 (broadcastInDim S32x8x128 ![0, 1] (by decide) a) (by decide))) (ix3 d t f))).toNat % 2048 = _
  rw [h1, h2, BitVec.toNat_add, BitVec.toNat_ofNat]
  have ht := t.isLt
  have ha := (a (ix2 d (⟨f.val / 128, by have := f.isLt; omega⟩ : Fin 8))).isLt
  omega

end Cert.Dedisp

end
-- ==== Proof.KTableBits.lean ====
/-
  The offsets the kernel reads from scalar memory are the host's own remainders by 2048 (`shiftTab`), so each is
  below 2048 and the window of 2048 rows it opens at that offset lies inside the doubled buffer of 4096 rows: the
  side conditions the kernel's body assumes of the words it loads hold for every input. The delay table, which no
  kernel touches, is the host chain's value as the region finds it.
-/
import proofs.«416176_j68745246540395_3_alg».proof.Proof.Gen.Kernel.Frame
import proofs.«416176_j68745246540395_3_alg».proof.Proof.WordMod
import Idealize.ShloMosaic.Lib.StableHlo.Run

noncomputable section

namespace Cert.Kernel.Hand

open Idealize.ShloMosaic Idealize.ShloMosaic.TcCoe Idealize.SL.Sem
open Cert.Kernel Cert.Kernel.Gen

variable {F : FTy → Type} [FloatOps F]
variable (m : (ℓ : Loc nD τ sig) → Buf (Elt F) ℓ)

/-- No window's index map reads the table: the pipeline asks nothing of its contents. -/
theorem ok : Gen.Ok m := trivial

set_option maxHeartbeats 4000000 in
/-- The table of offsets, as the region finds it, is the host chain's value of the two parameter arrays. -/
theorem tbl_eq : (tbl m 0 : S32x8.Idx → BitVec 32)
    = Cert.Dedisp.shiftTab (F := F) (m (((0 : Dev nD) : Thread nD τ).loc main_arg1)) (m (((0 : Dev nD) : Thread nD τ).loc main_arg2)) := by
  show StableHlo.after (List.flatten [hostOps0, hostOps0_1, hostOps0_2, hostOps0_3]) (fun b => m ((0 : Dev nD), b)) (Proc.devRef .tc main_v16) = _
  simp only [hostOps0, hostOps0_1, hostOps0_2, hostOps0_3, List.flatten_cons, List.flatten_nil, List.append_nil, List.cons_append, List.nil_append]
  after_results
  rfl

set_option maxHeartbeats 4000000 in
/-- The delay table, as the region finds it (and leaves it). -/
theorem delays_eq (c : Dev nD) : (V m c main_v9 : S32x1024.Idx → F .f32)
    = Cert.Dedisp.delays (F := F) (m ((c : Thread nD τ).loc main_arg1)) (m ((c : Thread nD τ).loc main_arg2)) := by
  show StableHlo.after (List.flatten [hostOps0, hostOps0_1, hostOps0_2, hostOps0_3]) (fun b => m (c, b)) (Proc.devRef .tc main_v9) = _
  simp only [hostOps0, hostOps0_1, hostOps0_2, hostOps0_3, List.flatten_cons, List.flatten_nil, List.append_nil, List.cons_append, List.nil_append]
  after_results
  rfl

/-- Every offset in the table is below 2048. -/
theorem tbl_lt (k : S32x8.Idx) : ((tbl m 0 : S32x8.Idx → BitVec 32) k).toNat < 2048 := by
  rw [tbl_eq]; exact Cert.Dedisp.shiftTab_lt _ _ k

/-- A window of 2048 rows opened at an offset of at most 2048 lies inside the 4096 rows of the doubled buffer. -/
theorem window_inside (w : BitVec 32) (hw : w.toNat < 2048) :
    ∀ a, (![0, 0, (Scalar.indexCast w).toNat, 0] : Fin 4 → Nat) a + S1x2x2048x128.size a ≤ S1x2x4096x128.size a := by
  intro a
  have : (Scalar.indexCast w).toNat = w.toNat := rfl
  fin_cases a <;> simp [this, S1x2x2048x128, S1x2x4096x128] <;> omega

/-- A word read through the whole table, for ANY table whose words are all below 2048, is below 2048. -/
theorem word_lt (c : Dev nD) (T : TbBuf0 (F := F) c tbM0_0) (hT : ∀ k : S32x8.Idx, ((T : S32x8.Idx → BitVec 32) k).toNat < 2048)
    (R : LoadRect S32x8) (x : R.shape.Idx) : ((tbM0_0.view.readAt (Elt F) R T x : BitVec 32)).toNat < 2048 :=
  hT (R.idx x)

/-- The side conditions the body assumes of the eight offsets it loads, at every grid point. -/
theorem hyps : Gen.Hyps m (ok m) := by
  intro c t
  have hT : ∀ k : S32x8.Idx, ((tbl m 0 : S32x8.Idx → BitVec 32) k).toNat < 2048 := tbl_lt m
  generalize tbl m 0 = T at hT
  exact ⟨window_inside _ (word_lt c T hT _ _), window_inside _ (word_lt c T hT _ _), window_inside _ (word_lt c T hT _ _),
    window_inside _ (word_lt c T hT _ _), window_inside _ (word_lt c T hT _ _), window_inside _ (word_lt c T hT _ _),
    window_inside _ (word_lt c T hT _ _), window_inside _ (word_lt c T hT _ _)⟩

end Cert.Kernel.Hand

end
-- ==== Proof.KPieces.lean ====
/-
  What one run of the kernel's body leaves, as plain functions of what it read.

  The body keeps a scratch of 4096 rows. At the first of the four measure tiles of a channel chunk it fills the
  scratch with the chunk's input block twice over (`doubled`: row `r` holds the block's row `r mod 2048`); at the
  other three it leaves the scratch as it found it. In every case it then loads eight offsets `w₀ … w₇` from scalar
  memory and stores, for measure `k` of the tile, the 2048 rows of the scratch that start at row `wₖ` (`outBlock`).
-/
import proofs.«416176_j68745246540395_3_alg».proof.Proof.Gen.KernelIdeal.Frame
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic Idealize.SL.Sem Idealize.ShloMosaic.ValueIdx
open Cert.KernelIdeal Cert.KernelIdeal.Gen

variable {F : FTy → Type} [FloatOps F]

/-- A block of 2048 rows laid out twice: row `r` of the 4096 is the block's row `r mod 2048`. -/
def doubled (x0 : Vec F S1x2x2048x128 .f32) : Vec F S1x2x4096x128 .f32 :=
  fun y => x0 (ix4 (0 : Fin 1) (⟨(y 1).val, (y 1).isLt⟩ : Fin 2)
    (⟨(y 2).val % 2048, Nat.mod_lt _ (by decide)⟩ : Fin 2048) (⟨(y 3).val, (y 3).isLt⟩ : Fin 128))

/-- The eight offsets the body loads at grid point `i` from the table `T`, in the order of its eight stores. -/
def offsetsAt (c : Dev nD) (i : grid0.Coords) (T : TbBuf0 (F := F) c tbM0_0) : Fin 8 → BitVec 32
  | ⟨0, _⟩ => tbM0_0.view.readAt (Elt F) (Rect.unit (s := S32x8) (k0_off1 i) S1x1.size (k0_off1_inb i)).toLoadRect T (Shape.Idx.first (numel1_S1x1.symm ▸ Nat.one_pos))
  | ⟨1, _⟩ => tbM0_0.view.readAt (Elt F) (Rect.unit (s := S32x8) (k0_off3 i) S1x1.size (k0_off3_inb i)).toLoadRect T (Shape.Idx.first (numel1_S1x1.symm ▸ Nat.one_pos))
  | ⟨2, _⟩ => tbM0_0.view.readAt (Elt F) (Rect.unit (s := S32x8) (k0_off5 i) S1x1.size (k0_off5_inb i)).toLoadRect T (Shape.Idx.first (numel1_S1x1.symm ▸ Nat.one_pos))
  | ⟨3, _⟩ => tbM0_0.view.readAt (Elt F) (Rect.unit (s := S32x8) (k0_off7 i) S1x1.size (k0_off7_inb i)).toLoadRect T (Shape.Idx.first (numel1_S1x1.symm ▸ Nat.one_pos))
  | ⟨4, _⟩ => tbM0_0.view.readAt (Elt F) (Rect.unit (s := S32x8) (k0_off9 i) S1x1.size (k0_off9_inb i)).toLoadRect T (Shape.Idx.first (numel1_S1x1.symm ▸ Nat.one_pos))
  | ⟨5, _⟩ => tbM0_0.view.readAt (Elt F) (Rect.unit (s := S32x8) (k0_off11 i) S1x1.size (k0_off11_inb i)).toLoadRect T (Shape.Idx.first (numel1_S1x1.symm ▸ Nat.one_pos))
  | ⟨6, _⟩ => tbM0_0.view.readAt (Elt F) (Rect.unit (s := S32x8) (k0_off13 i) S1x1.size (k0_off13_inb i)).toLoadRect T (Shape.Idx.first (numel1_S1x1.symm ▸ Nat.one_pos))
  | ⟨7, _⟩ => tbM0_0.view.readAt (Elt F) (Rect.unit (s := S32x8) (k0_off15 i) S1x1.size (k0_off15_inb i)).toLoadRect T (Shape.Idx.first (numel1_S1x1.symm ▸ Nat.one_pos))

/-- An output block: measure `k` of the tile holds the 2048 rows of `xs` that start at row `w k`. -/
def outBlock (xs : Vec F S1x2x4096x128 .f32) (w : Fin 8 → BitVec 32) : Vec F S1x8x2x2048x128 .f32 :=
  fun y => xs (ix4 (0 : Fin 1) (⟨(y 2).val, (y 2).isLt⟩ : Fin 2)
    (⟨((w (⟨(y 1).val, (y 1).isLt⟩ : Fin 8)).toNat + (y 3).val) % 4096, Nat.mod_lt _ (by decide)⟩ : Fin 4096)
    (⟨(y 4).val, (y 4).isLt⟩ : Fin 128))

theorem hz4 : (![0, 0, 0, 0] : Fin 4 → Nat) = fun _ => 0 := funext fun a => by fin_cases a <;> rfl

/-- Two stores of one block, at rows 2048… and at rows 0…, leave the block doubled. -/
theorem canon_doubled (x0 : Vec F S1x2x2048x128 .f32)
    (inbHi : ∀ a, (![0, 0, 2048, 0] : Fin 4 → Nat) a + S1x2x2048x128.size a ≤ S1x2x4096x128.size a)
    (inbLo : ∀ a, (![0, 0, 0, 0] : Fin 4 → Nat) a + S1x2x2048x128.size a ≤ S1x2x4096x128.size a)
    (wHi wLo : S1x2x2048x128.Idx → Elt F .f32) (hHi : wHi = x0) (hLo : wLo = x0) :
    View.canon (Val := Elt F) (s := S1x2x4096x128) (e := .f32)
      [⟨Rect.unit (s := S1x2x4096x128) ![0, 0, 2048, 0] S1x2x2048x128.size inbHi, wHi⟩,
       ⟨Rect.unit (s := S1x2x4096x128) ![0, 0, 0, 0] S1x2x2048x128.size inbLo, wLo⟩] = doubled x0 := by
  rw [hHi, hLo]
  funext y
  have h0 : (y 0).val < 1 := (y 0).isLt
  have h1 : (y 1).val < 2 := (y 1).isLt
  have h2 : (y 2).val < 4096 := (y 2).isLt
  have h3 : (y 3).val < 128 := (y 3).isLt
  refine View.canon_apply_of_pieces (doubled x0) _ ?_ y ?_
  · intro p hp x
    simp only [List.mem_cons, List.not_mem_nil, or_false] at hp
    rcases hp with rfl | rfl
    · show x0 x = x0 _
      refine congrArg x0 ?_
      funext a; apply Fin.ext
      match a with
      | ⟨0, _⟩ => show (x 0).val = 0; have h : (x 0).val < 1 := (x 0).isLt; omega
      | ⟨1, _⟩ => show (x 1).val = 0 + 1 * (x 1).val; omega
      | ⟨2, _⟩ => show (x 2).val = (2048 + 1 * (x 2).val) % 2048; have h : (x 2).val < 2048 := (x 2).isLt; omega
      | ⟨3, _⟩ => show (x 3).val = 0 + 1 * (x 3).val; omega
    · show x0 x = x0 _
      refine congrArg x0 ?_
      funext a; apply Fin.ext
      match a with
      | ⟨0, _⟩ => show (x 0).val = 0; have h : (x 0).val < 1 := (x 0).isLt; omega
      | ⟨1, _⟩ => show (x 1).val = 0 + 1 * (x 1).val; omega
      | ⟨2, _⟩ => show (x 2).val = (0 + 1 * (x 2).val) % 2048; have h : (x 2).val < 2048 := (x 2).isLt; omega
      | ⟨3, _⟩ => show (x 3).val = 0 + 1 * (x 3).val; omega
  · by_cases h : (y 2).val < 2048
    · refine ⟨_, List.mem_cons_of_mem _ (List.mem_singleton_self _), ?_⟩
      rw [Rect.mem_set_unit]
      intro a
      match a with
      | ⟨0, _⟩ => exact ⟨Nat.zero_le _, by show (y 0).val < 0 + 1; omega⟩
      | ⟨1, _⟩ => exact ⟨Nat.zero_le _, by show (y 1).val < 0 + 2; omega⟩
      | ⟨2, _⟩ => exact ⟨Nat.zero_le _, by show (y 2).val < 0 + 2048; omega⟩
      | ⟨3, _⟩ => exact ⟨Nat.zero_le _, by show (y 3).val < 0 + 128; omega⟩
    · refine ⟨_, List.mem_cons_self, ?_⟩
      rw [Rect.mem_set_unit]
      intro a
      match a with
      | ⟨0, _⟩ => exact ⟨Nat.zero_le _, by show (y 0).val < 0 + 1; omega⟩
      | ⟨1, _⟩ => exact ⟨Nat.zero_le _, by show (y 1).val < 0 + 2; omega⟩
      | ⟨2, _⟩ => exact ⟨by show 2048 ≤ (y 2).val; omega, by show (y 2).val < 2048 + 2048; omega⟩
      | ⟨3, _⟩ => exact ⟨Nat.zero_le _, by show (y 3).val < 0 + 128; omega⟩

/-- An output block read at an index whose measure coordinate is `k`. -/
theorem outBlock_apply (xs : Vec F S1x2x4096x128 .f32) (w : Fin 8 → BitVec 32) (y : S1x8x2x2048x128.Idx) (k : Fin 8)
    (hk : (y 1).val = k.val) :
    outBlock xs w y = xs (ix4 (0 : Fin 1) (⟨(y 2).val, (y 2).isLt⟩ : Fin 2)
      (⟨((w k).toNat + (y 3).val) % 4096, Nat.mod_lt _ (by decide)⟩ : Fin 4096) (⟨(y 4).val, (y 4).isLt⟩ : Fin 128)) := by
  have e : (⟨(y 1).val, (y 1).isLt⟩ : Fin 8) = k := Fin.ext hk
  unfold outBlock
  refine congrArg xs ?_
  funext a; apply Fin.ext
  match a with
  | ⟨0, _⟩ => rfl
  | ⟨1, _⟩ => rfl
  | ⟨2, _⟩ => show ((w ⟨(y 1).val, (y 1).isLt⟩).toNat + (y 3).val) % 4096 = ((w k).toNat + (y 3).val) % 4096; rw [e]
  | ⟨3, _⟩ => rfl

/-- The piece stored for measure `k` of a tile — the 2048 rows of `xs` from row `w k`, with a unit axis added — is
    the output block's restriction to that measure. -/
theorem window_piece (xs : Vec F S1x2x4096x128 .f32) (w : Fin 8 → BitVec 32) (k : Fin 8)
    (off : Fin 4 → Nat) (hoff : off = ![0, 0, (w k).toNat, 0])
    (inb : ∀ a, off a + S1x2x2048x128.size a ≤ S1x2x4096x128.size a)
    (offk : Fin 5 → Nat) (hoffk : offk = ![0, k.val, 0, 0, 0])
    (inbk : ∀ a, offk a + S1x1x2x2048x128.size a ≤ S1x8x2x2048x128.size a)
    (h : S1x2x2048x128.ShapeCasts S1x1x2x2048x128) (x : S1x1x2x2048x128.Idx) :
    shapeCast S1x1x2x2048x128 (View.ld xs (Rect.unit (s := S1x2x4096x128) off S1x2x2048x128.size inb)) h x
      = outBlock xs w ((Rect.unit (s := S1x8x2x2048x128) offk S1x1x2x2048x128.size inbk).emb x) := by
  subst hoff hoffk
  have hb : (w k).toNat + 2048 ≤ 4096 := inb 2
  have x0 : (x 0).val < 1 := (x 0).isLt
  have x1 : (x 1).val < 1 := (x 1).isLt
  have x3 : (x 3).val < 2048 := (x 3).isLt
  rw [outBlock_apply xs w _ k (by show k.val + 1 * (x 1).val = k.val; omega)]
  refine (shapeCast_addUnit_apply ![1, 2, 2048, 128] _ h x).trans ?_
  show xs _ = xs _
  refine congrArg xs ?_
  funext a; apply Fin.ext
  match a with
  | ⟨0, _⟩ => show 0 + 1 * (x 1).val = 0; omega
  | ⟨1, _⟩ => show 0 + 1 * (x 2).val = 0 + 1 * (x 2).val; rfl
  | ⟨2, _⟩ => show (w k).toNat + 1 * (x 3).val = ((w k).toNat + (0 + 1 * (x 3).val)) % 4096; omega
  | ⟨3, _⟩ => show 0 + 1 * (x 4).val = 0 + 1 * (x 4).val; rfl

/-- At the first tile of a chunk the scratch ends as the input block doubled. -/
theorem scratch_A (c : Dev nD) (i : grid0.Coords) (arg3 : Memref sig .tc .vmem S1x2x2048x128 .f32) (harg3 : arg3.IsWhole) (arg4 : Memref sig .tc .vmem S1x8x2x2048x128 .f32) (harg4 : arg4.IsWhole) (arg5 : Memref sig .tc .vmem S1x2x4096x128 .f32) (harg5 : arg5.IsWhole) (hc0 : cond0_0 i)
    (x0 : Vec F S1x2x2048x128 .f32) (xt0 : TbBuf0 (F := F) c tbM0_0) (k0_hw1 : k0_chk1 (tbM0_0.view.readAt (Elt F) (Rect.unit (s := S32x8) (k0_off1 i) S1x1.size (k0_off1_inb i)).toLoadRect xt0 (Shape.Idx.first (numel1_S1x1.symm ▸ Nat.one_pos)))) (k0_hw2 : k0_chk2 (tbM0_0.view.readAt (Elt F) (Rect.unit (s := S32x8) (k0_off3 i) S1x1.size (k0_off3_inb i)).toLoadRect xt0 (Shape.Idx.first (numel1_S1x1.symm ▸ Nat.one_pos)))) (k0_hw3 : k0_chk3 (tbM0_0.view.readAt (Elt F) (Rect.unit (s := S32x8) (k0_off5 i) S1x1.size (k0_off5_inb i)).toLoadRect xt0 (Shape.Idx.first (numel1_S1x1.symm ▸ Nat.one_pos)))) (k0_hw4 : k0_chk4 (tbM0_0.view.readAt (Elt F) (Rect.unit (s := S32x8) (k0_off7 i) S1x1.size (k0_off7_inb i)).toLoadRect xt0 (Shape.Idx.first (numel1_S1x1.symm ▸ Nat.one_pos)))) (k0_hw5 : k0_chk5 (tbM0_0.view.readAt (Elt F) (Rect.unit (s := S32x8) (k0_off9 i) S1x1.size (k0_off9_inb i)).toLoadRect xt0 (Shape.Idx.first (numel1_S1x1.symm ▸ Nat.one_pos)))) (k0_hw6 : k0_chk6 (tbM0_0.view.readAt (Elt F) (Rect.unit (s := S32x8) (k0_off11 i) S1x1.size (k0_off11_inb i)).toLoadRect xt0 (Shape.Idx.first (numel1_S1x1.symm ▸ Nat.one_pos)))) (k0_hw7 : k0_chk7 (tbM0_0.view.readAt (Elt F) (Rect.unit (s := S32x8) (k0_off13 i) S1x1.size (k0_off13_inb i)).toLoadRect xt0 (Shape.Idx.first (numel1_S1x1.symm ▸ Nat.one_pos)))) (k0_hw8 : k0_chk8 (tbM0_0.view.readAt (Elt F) (Rect.unit (s := S32x8) (k0_off15 i) S1x1.size (k0_off15_inb i)).toLoadRect xt0 (Shape.Idx.first (numel1_S1x1.symm ▸ Nat.one_pos)))) :
    sout0_A_0 c i arg3 harg3 arg4 harg4 arg5 harg5 hc0 x0 xt0 k0_hw1 k0_hw2 k0_hw3 k0_hw4 k0_hw5 k0_hw6 k0_hw7 k0_hw8 = doubled x0 := by
  unfold sout0_A_0
  rw [View.read_writes_eq_canon _ _ _ (scover0_A_0 c i arg3 harg3 arg4 harg4 arg5 harg5 hc0 x0 xt0 k0_hw1 k0_hw2 k0_hw3 k0_hw4 k0_hw5 k0_hw6 k0_hw7 k0_hw8)]
  unfold kernelRun0_A
  dsimp only
  sl_unfold_words
  exact canon_doubled x0 _ _ _ _
    (by unfold k0_pay3; simp only [View.readAt_eq_ld, harg3.read_unread, View.ld_unit_zero (S := S1x2x2048x128) hz4, shapeCast_self])
    (by unfold k0_pay2; simp only [View.readAt_eq_ld, harg3.read_unread, View.ld_unit_zero (S := S1x2x2048x128) hz4, shapeCast_self])

set_option maxHeartbeats 1000000 in
/-- At the other tiles the output block is cut from the scratch as the point before left it. -/
theorem out_B (c : Dev nD) (i : grid0.Coords) (arg3 : Memref sig .tc .vmem S1x2x2048x128 .f32) (harg3 : arg3.IsWhole) (arg4 : Memref sig .tc .vmem S1x8x2x2048x128 .f32) (harg4 : arg4.IsWhole) (arg5 : Memref sig .tc .vmem S1x2x4096x128 .f32) (harg5 : arg5.IsWhole) (hc0 : ¬cond0_0 i)
    (x0 : Vec F S1x2x2048x128 .f32) (xt0 : TbBuf0 (F := F) c tbM0_0) (xs0 : Vec F S1x2x4096x128 .f32) (k0_hw1 : k0_chk1 (tbM0_0.view.readAt (Elt F) (Rect.unit (s := S32x8) (k0_off1 i) S1x1.size (k0_off1_inb i)).toLoadRect xt0 (Shape.Idx.first (numel1_S1x1.symm ▸ Nat.one_pos)))) (k0_hw2 : k0_chk2 (tbM0_0.view.readAt (Elt F) (Rect.unit (s := S32x8) (k0_off3 i) S1x1.size (k0_off3_inb i)).toLoadRect xt0 (Shape.Idx.first (numel1_S1x1.symm ▸ Nat.one_pos)))) (k0_hw3 : k0_chk3 (tbM0_0.view.readAt (Elt F) (Rect.unit (s := S32x8) (k0_off5 i) S1x1.size (k0_off5_inb i)).toLoadRect xt0 (Shape.Idx.first (numel1_S1x1.symm ▸ Nat.one_pos)))) (k0_hw4 : k0_chk4 (tbM0_0.view.readAt (Elt F) (Rect.unit (s := S32x8) (k0_off7 i) S1x1.size (k0_off7_inb i)).toLoadRect xt0 (Shape.Idx.first (numel1_S1x1.symm ▸ Nat.one_pos)))) (k0_hw5 : k0_chk5 (tbM0_0.view.readAt (Elt F) (Rect.unit (s := S32x8) (k0_off9 i) S1x1.size (k0_off9_inb i)).toLoadRect xt0 (Shape.Idx.first (numel1_S1x1.symm ▸ Nat.one_pos)))) (k0_hw6 : k0_chk6 (tbM0_0.view.readAt (Elt F) (Rect.unit (s := S32x8) (k0_off11 i) S1x1.size (k0_off11_inb i)).toLoadRect xt0 (Shape.Idx.first (numel1_S1x1.symm ▸ Nat.one_pos)))) (k0_hw7 : k0_chk7 (tbM0_0.view.readAt (Elt F) (Rect.unit (s := S32x8) (k0_off13 i) S1x1.size (k0_off13_inb i)).toLoadRect xt0 (Shape.Idx.first (numel1_S1x1.symm ▸ Nat.one_pos)))) (k0_hw8 : k0_chk8 (tbM0_0.view.readAt (Elt F) (Rect.unit (s := S32x8) (k0_off15 i) S1x1.size (k0_off15_inb i)).toLoadRect xt0 (Shape.Idx.first (numel1_S1x1.symm ▸ Nat.one_pos)))) :
    out0_B_1 c i arg3 harg3 arg4 harg4 arg5 harg5 hc0 x0 xt0 xs0 k0_hw1 k0_hw2 k0_hw3 k0_hw4 k0_hw5 k0_hw6 k0_hw7 k0_hw8 = outBlock xs0 (offsetsAt c i xt0) := by
  unfold out0_B_1
  rw [View.read_writes_eq_canon _ _ _ (cover0_B_1 c i arg3 harg3 arg4 harg4 arg5 harg5 hc0 x0 xt0 xs0 k0_hw1 k0_hw2 k0_hw3 k0_hw4 k0_hw5 k0_hw6 k0_hw7 k0_hw8)]
  funext y
  refine View.canon_apply_of_pieces (outBlock xs0 (offsetsAt c i xt0)) _ ?_ y (cover0_B_1 c i arg3 harg3 arg4 harg4 arg5 harg5 hc0 x0 xt0 xs0 k0_hw1 k0_hw2 k0_hw3 k0_hw4 k0_hw5 k0_hw6 k0_hw7 k0_hw8 y)
  unfold kernelRun0_B
  dsimp only
  sl_unfold_words
  intro p hp x
  simp only [List.mem_cons, List.not_mem_nil, or_false] at hp
  rcases hp with rfl | rfl | rfl | rfl | rfl | rfl | rfl | rfl
  · unfold k0_pay1
    simp only [View.readAt_eq_ld, harg5.read_unread]
    exact window_piece xs0 (offsetsAt c i xt0) (⟨7, by decide⟩ : Fin 8) _ rfl _ _ rfl _ _ x
  · unfold k0_pay10
    simp only [View.readAt_eq_ld, harg5.read_unread]
    exact window_piece xs0 (offsetsAt c i xt0) (⟨6, by decide⟩ : Fin 8) _ rfl _ _ rfl _ _ x
  · unfold k0_pay9
    simp only [View.readAt_eq_ld, harg5.read_unread]
    exact window_piece xs0 (offsetsAt c i xt0) (⟨5, by decide⟩ : Fin 8) _ rfl _ _ rfl _ _ x
  · unfold k0_pay8
    simp only [View.readAt_eq_ld, harg5.read_unread]
    exact window_piece xs0 (offsetsAt c i xt0) (⟨4, by decide⟩ : Fin 8) _ rfl _ _ rfl _ _ x
  · unfold k0_pay7
    simp only [View.readAt_eq_ld, harg5.read_unread]
    exact window_piece xs0 (offsetsAt c i xt0) (⟨3, by decide⟩ : Fin 8) _ rfl _ _ rfl _ _ x
  · unfold k0_pay6
    simp only [View.readAt_eq_ld, harg5.read_unread]
    exact window_piece xs0 (offsetsAt c i xt0) (⟨2, by decide⟩ : Fin 8) _ rfl _ _ rfl _ _ x
  · unfold k0_pay5
    simp only [View.readAt_eq_ld, harg5.read_unread]
    exact window_piece xs0 (offsetsAt c i xt0) (⟨1, by decide⟩ : Fin 8) _ rfl _ _ rfl _ _ x
  · unfold k0_pay4
    simp only [View.readAt_eq_ld, harg5.read_unread]
    exact window_piece xs0 (offsetsAt c i xt0) (⟨0, by decide⟩ : Fin 8) _ rfl _ _ rfl _ _ x

set_option maxHeartbeats 1000000 in
/-- At the first tile of a chunk the output block is cut from the doubled input block. -/
theorem out_A (c : Dev nD) (i : grid0.Coords) (arg3 : Memref sig .tc .vmem S1x2x2048x128 .f32) (harg3 : arg3.IsWhole) (arg4 : Memref sig .tc .vmem S1x8x2x2048x128 .f32) (harg4 : arg4.IsWhole) (arg5 : Memref sig .tc .vmem S1x2x4096x128 .f32) (harg5 : arg5.IsWhole) (hc0 : cond0_0 i)
    (x0 : Vec F S1x2x2048x128 .f32) (xt0 : TbBuf0 (F := F) c tbM0_0) (k0_hw1 : k0_chk1 (tbM0_0.view.readAt (Elt F) (Rect.unit (s := S32x8) (k0_off1 i) S1x1.size (k0_off1_inb i)).toLoadRect xt0 (Shape.Idx.first (numel1_S1x1.symm ▸ Nat.one_pos)))) (k0_hw2 : k0_chk2 (tbM0_0.view.readAt (Elt F) (Rect.unit (s := S32x8) (k0_off3 i) S1x1.size (k0_off3_inb i)).toLoadRect xt0 (Shape.Idx.first (numel1_S1x1.symm ▸ Nat.one_pos)))) (k0_hw3 : k0_chk3 (tbM0_0.view.readAt (Elt F) (Rect.unit (s := S32x8) (k0_off5 i) S1x1.size (k0_off5_inb i)).toLoadRect xt0 (Shape.Idx.first (numel1_S1x1.symm ▸ Nat.one_pos)))) (k0_hw4 : k0_chk4 (tbM0_0.view.readAt (Elt F) (Rect.unit (s := S32x8) (k0_off7 i) S1x1.size (k0_off7_inb i)).toLoadRect xt0 (Shape.Idx.first (numel1_S1x1.symm ▸ Nat.one_pos)))) (k0_hw5 : k0_chk5 (tbM0_0.view.readAt (Elt F) (Rect.unit (s := S32x8) (k0_off9 i) S1x1.size (k0_off9_inb i)).toLoadRect xt0 (Shape.Idx.first (numel1_S1x1.symm ▸ Nat.one_pos)))) (k0_hw6 : k0_chk6 (tbM0_0.view.readAt (Elt F) (Rect.unit (s := S32x8) (k0_off11 i) S1x1.size (k0_off11_inb i)).toLoadRect xt0 (Shape.Idx.first (numel1_S1x1.symm ▸ Nat.one_pos)))) (k0_hw7 : k0_chk7 (tbM0_0.view.readAt (Elt F) (Rect.unit (s := S32x8) (k0_off13 i) S1x1.size (k0_off13_inb i)).toLoadRect xt0 (Shape.Idx.first (numel1_S1x1.symm ▸ Nat.one_pos)))) (k0_hw8 : k0_chk8 (tbM0_0.view.readAt (Elt F) (Rect.unit (s := S32x8) (k0_off15 i) S1x1.size (k0_off15_inb i)).toLoadRect xt0 (Shape.Idx.first (numel1_S1x1.symm ▸ Nat.one_pos)))) :
    out0_A_1 c i arg3 harg3 arg4 harg4 arg5 harg5 hc0 x0 xt0 k0_hw1 k0_hw2 k0_hw3 k0_hw4 k0_hw5 k0_hw6 k0_hw7 k0_hw8 = outBlock (doubled x0) (offsetsAt c i xt0) := by
  unfold out0_A_1
  rw [View.read_writes_eq_canon _ _ _ (cover0_A_1 c i arg3 harg3 arg4 harg4 arg5 harg5 hc0 x0 xt0 k0_hw1 k0_hw2 k0_hw3 k0_hw4 k0_hw5 k0_hw6 k0_hw7 k0_hw8)]
  funext y
  refine View.canon_apply_of_pieces (outBlock (doubled x0) (offsetsAt c i xt0)) _ ?_ y (cover0_A_1 c i arg3 harg3 arg4 harg4 arg5 harg5 hc0 x0 xt0 k0_hw1 k0_hw2 k0_hw3 k0_hw4 k0_hw5 k0_hw6 k0_hw7 k0_hw8 y)
  unfold kernelRun0_A
  dsimp only
  sl_unfold_words
  have hcan : ∀ (inbHi : ∀ a, (![0, 0, 2048, 0] : Fin 4 → Nat) a + S1x2x2048x128.size a ≤ S1x2x4096x128.size a)
      (inbLo : ∀ a, (![0, 0, 0, 0] : Fin 4 → Nat) a + S1x2x2048x128.size a ≤ S1x2x4096x128.size a)
      (inb0 : ∀ a, (![0, 0, 0, 0] : Fin 4 → Nat) a + S1x2x2048x128.size a ≤ S1x2x2048x128.size a),
      View.canon (Val := Elt F) (s := S1x2x4096x128) (e := .f32)
        [⟨Rect.unit (s := S1x2x4096x128) ![0, 0, 2048, 0] S1x2x2048x128.size inbHi,
            k0_pay3 (View.readAt (Elt F) arg3.view (Rect.unit (s := S1x2x2048x128) ![0, 0, 0, 0] S1x2x2048x128.size inb0).toLoadRect (harg3.unread x0))⟩,
         ⟨Rect.unit (s := S1x2x4096x128) ![0, 0, 0, 0] S1x2x2048x128.size inbLo,
            k0_pay2 (View.readAt (Elt F) arg3.view (Rect.unit (s := S1x2x2048x128) ![0, 0, 0, 0] S1x2x2048x128.size inb0).toLoadRect (harg3.unread x0))⟩]
        = doubled x0 := fun inbHi inbLo inb0 => canon_doubled x0 inbHi inbLo _ _
    (by unfold k0_pay3; simp only [View.readAt_eq_ld, harg3.read_unread, View.ld_unit_zero (S := S1x2x2048x128) hz4, shapeCast_self])
    (by unfold k0_pay2; simp only [View.readAt_eq_ld, harg3.read_unread, View.ld_unit_zero (S := S1x2x2048x128) hz4, shapeCast_self])
  intro p hp x
  simp only [List.mem_cons, List.not_mem_nil, or_false] at hp
  rcases hp with rfl | rfl | rfl | rfl | rfl | rfl | rfl | rfl
  · unfold k0_pay1
    simp only [View.readAt_writes_junk_eq_canon, hcan]
    exact window_piece (doubled x0) (offsetsAt c i xt0) (⟨7, by decide⟩ : Fin 8) _ rfl _ _ rfl _ _ x
  · unfold k0_pay10
    simp only [View.readAt_writes_junk_eq_canon, hcan]
    exact window_piece (doubled x0) (offsetsAt c i xt0) (⟨6, by decide⟩ : Fin 8) _ rfl _ _ rfl _ _ x
  · unfold k0_pay9
    simp only [View.readAt_writes_junk_eq_canon, hcan]
    exact window_piece (doubled x0) (offsetsAt c i xt0) (⟨5, by decide⟩ : Fin 8) _ rfl _ _ rfl _ _ x
  · unfold k0_pay8
    simp only [View.readAt_writes_junk_eq_canon, hcan]
    exact window_piece (doubled x0) (offsetsAt c i xt0) (⟨4, by decide⟩ : Fin 8) _ rfl _ _ rfl _ _ x
  · unfold k0_pay7
    simp only [View.readAt_writes_junk_eq_canon, hcan]
    exact window_piece (doubled x0) (offsetsAt c i xt0) (⟨3, by decide⟩ : Fin 8) _ rfl _ _ rfl _ _ x
  · unfold k0_pay6
    simp only [View.readAt_writes_junk_eq_canon, hcan]
    exact window_piece (doubled x0) (offsetsAt c i xt0) (⟨2, by decide⟩ : Fin 8) _ rfl _ _ rfl _ _ x
  · unfold k0_pay5
    simp only [View.readAt_writes_junk_eq_canon, hcan]
    exact window_piece (doubled x0) (offsetsAt c i xt0) (⟨1, by decide⟩ : Fin 8) _ rfl _ _ rfl _ _ x
  · unfold k0_pay4
    simp only [View.readAt_writes_junk_eq_canon, hcan]
    exact window_piece (doubled x0) (offsetsAt c i xt0) (⟨0, by decide⟩ : Fin 8) _ rfl _ _ rfl _ _ x

end Cert.KernelIdeal.Hand

end
-- ==== Proof.KTableIdeal.lean ====
/-
  The offsets the kernel reads from scalar memory are the host's own remainders by 2048 (`shiftTab`), so each is
  below 2048 and the window of 2048 rows it opens at that offset lies inside the doubled buffer of 4096 rows: the
  side conditions the kernel's body assumes of the words it loads hold for every input. The delay table, which no
  kernel touches, is the host chain's value as the region finds it.
-/
import proofs.«416176_j68745246540395_3_alg».proof.Proof.Gen.KernelIdeal.Frame
import proofs.«416176_j68745246540395_3_alg».proof.Proof.WordMod
import Idealize.ShloMosaic.Lib.StableHlo.Run

noncomputable section

namespace Cert.KernelIdeal.Hand

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ)

/-- No window's index map reads the table: the pipeline asks nothing of its contents. -/
theorem ok : Gen.Ok m := trivial

set_option maxHeartbeats 4000000 in
/-- The table of offsets, as the region finds it, is the host chain's value of the two parameter arrays. -/
theorem tbl_eq : (tbl m 0 : S32x8.Idx → BitVec 32)
    = Cert.Dedisp.shiftTab (F := F) (m (((0 : Dev nD) : Thread nD τ).loc main_arg1)) (m (((0 : Dev nD) : Thread nD τ).loc main_arg2)) := by
  show StableHlo.after (List.flatten [hostOps0, hostOps0_1, hostOps0_2, hostOps0_3]) (fun b => m ((0 : Dev nD), b)) (Proc.devRef .tc main_v16) = _
  simp only [hostOps0, hostOps0_1, hostOps0_2, hostOps0_3, List.flatten_cons, List.flatten_nil, List.append_nil, List.cons_append, List.nil_append]
  after_results
  rfl

set_option maxHeartbeats 4000000 in
/-- The delay table, as the region finds it (and leaves it). -/
theorem delays_eq (c : Dev nD) : (V m c main_v9 : S32x1024.Idx → F .f32)
    = Cert.Dedisp.delays (F := F) (m ((c : Thread nD τ).loc main_arg1)) (m ((c : Thread nD τ).loc main_arg2)) := by
  show StableHlo.after (List.flatten [hostOps0, hostOps0_1, hostOps0_2, hostOps0_3]) (fun b => m (c, b)) (Proc.devRef .tc main_v9) = _
  simp only [hostOps0, hostOps0_1, hostOps0_2, hostOps0_3, List.flatten_cons, List.flatten_nil, List.append_nil, List.cons_append, List.nil_append]
  after_results
  rfl

/-- Every offset in the table is below 2048. -/
theorem tbl_lt (k : S32x8.Idx) : ((tbl m 0 : S32x8.Idx → BitVec 32) k).toNat < 2048 := by
  rw [tbl_eq]; exact Cert.Dedisp.shiftTab_lt _ _ k

/-- A window of 2048 rows opened at an offset of at most 2048 lies inside the 4096 rows of the doubled buffer. -/
theorem window_inside (w : BitVec 32) (hw : w.toNat < 2048) :
    ∀ a, (![0, 0, (Scalar.indexCast w).toNat, 0] : Fin 4 → Nat) a + S1x2x2048x128.size a ≤ S1x2x4096x128.size a := by
  intro a
  have : (Scalar.indexCast w).toNat = w.toNat := rfl
  fin_cases a <;> simp [this, S1x2x2048x128, S1x2x4096x128] <;> omega

/-- A word read through the whole table, for ANY table whose words are all below 2048, is below 2048. -/
theorem word_lt (c : Dev nD) (T : TbBuf0 (F := F) c tbM0_0) (hT : ∀ k : S32x8.Idx, ((T : S32x8.Idx → BitVec 32) k).toNat < 2048)
    (R : LoadRect S32x8) (x : R.shape.Idx) : ((tbM0_0.view.readAt (Elt F) R T x : BitVec 32)).toNat < 2048 :=
  hT (R.idx x)

/-- The side conditions the body assumes of the eight offsets it loads, at every grid point. -/
theorem hyps : Gen.Hyps m (ok m) := by
  intro c t
  have hT : ∀ k : S32x8.Idx, ((tbl m 0 : S32x8.Idx → BitVec 32) k).toNat < 2048 := tbl_lt m
  generalize tbl m 0 = T at hT
  exact ⟨window_inside _ (word_lt c T hT _ _), window_inside _ (word_lt c T hT _ _), window_inside _ (word_lt c T hT _ _),
    window_inside _ (word_lt c T hT _ _), window_inside _ (word_lt c T hT _ _), window_inside _ (word_lt c T hT _ _),
    window_inside _ (word_lt c T hT _ _), window_inside _ (word_lt c T hT _ _)⟩

end Cert.KernelIdeal.Hand

end
-- ==== Proof.KInvariant.lean ====
/-
  The scratch across the grid. The grid runs the four measure tiles of a channel chunk one after the other, and the
  input window's block depends on the chunk alone; so by induction on the grid point the scratch after EVERY point is
  that point's input block doubled — filled at the chunk's first tile, kept at the other three, where the input
  block is still the same one. Hence every output block is cut from the doubled input block of its own point.
-/
import proofs.«416176_j68745246540395_3_alg».proof.Proof.KPieces
import proofs.«416176_j68745246540395_3_alg».proof.Proof.KTableIdeal

set_option maxRecDepth 16384

noncomputable section

namespace Cert.KernelIdeal.Hand

open Idealize.ShloMosaic Idealize.ShloMosaic.TcCoe Idealize.SL.Sem Idealize.ShloMosaic.ValueIdx
open Cert.KernelIdeal Cert.KernelIdeal.Gen

variable {F : FTy → Type} [FloatOps F]
variable (m : (ℓ : Loc nD τ sig) → Buf (Elt F) ℓ)

/-- The input window's index map reads the chunk coordinate alone: it is the same at a point and at the one before,
    unless the point is a chunk's first. Decided over the 32 grid points, at any contents of the table. -/
private theorem index0_pred (a : (pcfg0 (F := F)).Adm) : ∀ (t : Fin (cfg0 a).N) (h : t.val + 1 < (cfg0 a).N), ¬(t.val + 1) % 4 = 0 →
    ((cfg0 a).win 0).index ⟨t.val + 1, h⟩ = ((cfg0 a).win 0).index t :=
  (by decide +kernel : ∀ (t : Fin grid0.N) (h : t.val + 1 < grid0.N), ¬(t.val + 1) % 4 = 0 →
      cc0_transform_0 (grid0.coords ⟨t.val + 1, h⟩) = cc0_transform_0 (grid0.coords t))

/-- Hence the two points' blocks are the same rectangle of the array: entry `y` of either is the array's entry at
    block index × block size + `y`, axis by axis, and the block indices agree. -/
private theorem iblk_pred (hO : Ok m) (c : Dev nD) (n : ℕ) (hn : n + 1 < (cfgM m hO).N) (h : ¬(n + 1) % 4 = 0) :
    (iblk m hO c 0 ⟨n + 1, hn⟩ : Vec F S1x2x2048x128 .f32) = iblk m hO c 0 ⟨n, Nat.lt_of_succ_lt hn⟩ := by
  funext y
  unfold iblk
  rw [View.read_apply, View.read_apply]
  have hemb : (((cfgM m hO).win 0).blk ⟨n + 1, hn⟩).view.emb y = (((cfgM m hO).win 0).blk ⟨n, Nat.lt_of_succ_lt hn⟩).view.emb y := by
    funext b
    apply Fin.ext
    show ((cfgM m hO).win 0).index ⟨n + 1, hn⟩ b * ((cfgM m hO).win 0).size b + 1 * (y b).val
      = ((cfgM m hO).win 0).index ⟨n, Nat.lt_of_succ_lt hn⟩ b * ((cfgM m hO).win 0).size b + 1 * (y b).val
    rw [index0_pred (adm m hO) ⟨n, Nat.lt_of_succ_lt hn⟩ hn h]
  rw [hemb]

/-- The input window's block at grid point `t`, at its literal type. -/
abbrev xblk (c : Dev nD) (t : Fin (cfgM m (ok m)).N) : Vec F S1x2x2048x128 .f32 := iblk m (ok m) c 0 t

/-- The input block does not change inside a chunk: at a point that is not a chunk's first tile it is the block of
    the point before. -/
theorem xblk_pred (c : Dev nD) (n : ℕ) (hn : n + 1 < (cfgM m (ok m)).N) (h : ¬(n + 1) % 4 = 0) :
    xblk m c ⟨n + 1, hn⟩ = xblk m c ⟨n, Nat.lt_of_succ_lt hn⟩ := by
  exact iblk_pred m (ok m) c n hn h

/-- After every grid point the scratch holds that point's input block, doubled. -/
theorem scratch_after (c : Dev nD) : ∀ (n : ℕ) (hn : n < (cfgM m (ok m)).N),
    (outsAt0 m (ok m) (hyps m) c n hn).2 = doubled (xblk m c ⟨n, hn⟩) := by
  intro n
  induction n with
  | zero =>
    intro hn
    rw [outsAt0_A m (ok m) (hyps m) c ⟨0, hn⟩ (Nat.zero_mod _)]
    dsimp only
    exact scratch_A c (grid0.coords ⟨0, hn⟩) (ms0_0 m (ok m) ⟨0, hn⟩) (hs0_0 m (ok m) ⟨0, hn⟩) (ms0_1 m (ok m) ⟨0, hn⟩) (hs0_1 m (ok m) ⟨0, hn⟩) scM0_0 (Memref.isWhole_whole _) ((hcond0_0 ⟨0, hn⟩).mpr (Nat.zero_mod _)) (iblk m (ok m) c 0 ⟨0, hn⟩) (tbl m 0) (Hyps.c0 (hyps m) c ⟨0, hn⟩) (Hyps.c1 (hyps m) c ⟨0, hn⟩) (Hyps.c2 (hyps m) c ⟨0, hn⟩) (Hyps.c3 (hyps m) c ⟨0, hn⟩) (Hyps.c4 (hyps m) c ⟨0, hn⟩) (Hyps.c5 (hyps m) c ⟨0, hn⟩) (Hyps.c6 (hyps m) c ⟨0, hn⟩) (Hyps.c7 (hyps m) c ⟨0, hn⟩)
  | succ n ih =>
    intro hn
    by_cases h0 : (n + 1) % 4 = 0
    · rw [outsAt0_A m (ok m) (hyps m) c ⟨n + 1, hn⟩ h0]
      dsimp only
      exact scratch_A c (grid0.coords ⟨n + 1, hn⟩) (ms0_0 m (ok m) ⟨n + 1, hn⟩) (hs0_0 m (ok m) ⟨n + 1, hn⟩) (ms0_1 m (ok m) ⟨n + 1, hn⟩) (hs0_1 m (ok m) ⟨n + 1, hn⟩) scM0_0 (Memref.isWhole_whole _) ((hcond0_0 ⟨n + 1, hn⟩).mpr h0) (iblk m (ok m) c 0 ⟨n + 1, hn⟩) (tbl m 0) (Hyps.c0 (hyps m) c ⟨n + 1, hn⟩) (Hyps.c1 (hyps m) c ⟨n + 1, hn⟩) (Hyps.c2 (hyps m) c ⟨n + 1, hn⟩) (Hyps.c3 (hyps m) c ⟨n + 1, hn⟩) (Hyps.c4 (hyps m) c ⟨n + 1, hn⟩) (Hyps.c5 (hyps m) c ⟨n + 1, hn⟩) (Hyps.c6 (hyps m) c ⟨n + 1, hn⟩) (Hyps.c7 (hyps m) c ⟨n + 1, hn⟩)
    · -- the scratch is the one the point before left, and the input block has not moved
      rw [outsAt0_B m (ok m) (hyps m) c ⟨n + 1, hn⟩ h0]
      dsimp only
      unfold sout0_B_0
      show (outsAt0 m (ok m) (hyps m) c n (Nat.lt_of_succ_lt hn)).2 = _
      rw [ih (Nat.lt_of_succ_lt hn), xblk_pred m c n hn h0]

/-- After every grid point the output's staging buffer holds the windows of that point's doubled input block at the
    eight offsets the point loads. -/
theorem out_after (c : Dev nD) (t : Fin (cfgM m (ok m)).N) :
    (outsAt0 m (ok m) (hyps m) c t.val t.isLt).1
      = outBlock (doubled (xblk m c t)) (offsetsAt c (grid0.coords t) (tbl m 0)) := by
  by_cases h0 : t.val % 4 = 0
  · rw [outsAt0_A m (ok m) (hyps m) c t h0]
    dsimp only
    exact out_A c (grid0.coords t) (ms0_0 m (ok m) t) (hs0_0 m (ok m) t) (ms0_1 m (ok m) t) (hs0_1 m (ok m) t) scM0_0 (Memref.isWhole_whole _) ((hcond0_0 t).mpr h0) (iblk m (ok m) c 0 t) (tbl m 0) (Hyps.c0 (hyps m) c t) (Hyps.c1 (hyps m) c t) (Hyps.c2 (hyps m) c t) (Hyps.c3 (hyps m) c t) (Hyps.c4 (hyps m) c t) (Hyps.c5 (hyps m) c t) (Hyps.c6 (hyps m) c t) (Hyps.c7 (hyps m) c t)
  · rw [outsAt0_B m (ok m) (hyps m) c t h0]
    dsimp only
    refine (out_B c (grid0.coords t) (ms0_0 m (ok m) t) (hs0_0 m (ok m) t) (ms0_1 m (ok m) t) (hs0_1 m (ok m) t) scM0_0 (Memref.isWhole_whole _) (fun h => h0 ((hcond0_0 t).mp h)) (iblk m (ok m) c 0 t) (tbl m 0) (outsAt0 m (ok m) (hyps m) c (t.val - 1) (Nat.lt_of_le_of_lt (Nat.sub_le _ _) t.isLt)).2 (Hyps.c0 (hyps m) c t) (Hyps.c1 (hyps m) c t) (Hyps.c2 (hyps m) c t) (Hyps.c3 (hyps m) c t) (Hyps.c4 (hyps m) c t) (Hyps.c5 (hyps m) c t) (Hyps.c6 (hyps m) c t) (Hyps.c7 (hyps m) c t)).trans ?_
    refine congrArg (fun xs => outBlock xs (offsetsAt c (grid0.coords t) (tbl m 0))) ?_
    rw [scratch_after m c (t.val - 1) (Nat.lt_of_le_of_lt (Nat.sub_le _ _) t.isLt)]
    refine congrArg doubled ?_
    obtain ⟨n, hn⟩ := t
    cases n with
    | zero => exact absurd (Nat.zero_mod _) h0
    | succ k => exact (xblk_pred m c k hn h0).symm

end Cert.KernelIdeal.Hand

end
-- ==== Proof.KFinal.lean ====
/-
  One block of the result. Grid point `t` is (chunk `t / 4`, tile `t mod 4`): its output block is measures
  `8 (t mod 4) … 8 (t mod 4) + 7` and channels `128 (t / 4) … 128 (t / 4) + 127` of the result, its input block the
  same channels of `x`, and the `k`-th offset it loads is the table's entry `(8 (t mod 4) + k, t / 4)`. The block it
  writes back holds, at `(0, k, p, r, q)`, the input block doubled at row `(table[8 (t mod 4) + k, t / 4] + r) mod 4096`,
  that is `x` at time `(table[…] + r) mod 2048` (as `(a mod 4096) mod 2048 = a mod 2048`) and channel `128 (t / 4) + q`,
  whose chunk `(128 (t / 4) + q) / 128` is `t / 4`. So what every grid point writes back is the restriction to its block of
  ONE function of the whole arrays, `rolled x table`.
-/
import proofs.«416176_j68745246540395_3_alg».proof.Proof.KInvariant
import Idealize.ShloMosaic.Lib.Pipeline.Value

set_option maxRecDepth 16384

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen

variable {F : FTy → Type} [FloatOps F]
variable (m : (ℓ : Loc nD τ sig) → Buf (Elt F) ℓ) (ρ : Dev nD → PrngReg)

/-- The input window's index map over the grid: chunk `t / 4` on the channel axis, 0 elsewhere. -/
theorem win0_index_grid : ∀ t : Fin grid0.N, cc0_transform_0 (grid0.coords t) 0 = 0 ∧ cc0_transform_0 (grid0.coords t) 1 = 0
    ∧ cc0_transform_0 (grid0.coords t) 2 = 0 ∧ cc0_transform_0 (grid0.coords t) 3 = t.val / 4 := by decide +kernel

set_option maxHeartbeats 400000 in
/-- The input block at point `t`, read at `(0, p, r, q)`: the array at channel `128 (t / 4) + q`. -/
theorem read_blk0 (a : (pcfg0 (F := F)).Adm) (X : Vec F S1x2x2048x1024 .f32) (t : Fin (cfg0 a).N) (p : Fin 2) (r : Fin 2048)
    (q : Fin 128) :
    (((cfg0 a).win 0).blk t).view.read (Elt F) X (ix4 (0 : Fin 1) p r q)
      = X (ix4 (0 : Fin 1) p r (⟨128 * (t.val / 4) + q.val, by
          have h := t.isLt; have hN : (cfg0 a).N = 32 := N_0; omega⟩ : Fin 1024)) := by
  refine (View.read_apply _ _).trans ?_
  show X _ = X _
  refine congrArg X (funext fun b => Fin.ext ?_)
  have hi := win0_index_grid t
  match b with
  | ⟨0, _⟩ =>
    show cc0_transform_0 (grid0.coords t) 0 * 1 + 1 * 0 = 0
    rw [hi.1]
  | ⟨1, _⟩ =>
    show cc0_transform_0 (grid0.coords t) 1 * 2 + 1 * p.val = p.val
    rw [hi.2.1]; omega
  | ⟨2, _⟩ =>
    show cc0_transform_0 (grid0.coords t) 2 * 2048 + 1 * r.val = r.val
    rw [hi.2.2.1]; omega
  | ⟨3, _⟩ =>
    show cc0_transform_0 (grid0.coords t) 3 * 128 + 1 * q.val = 128 * (t.val / 4) + q.val
    rw [hi.2.2.2]; omega

/-- The output window's index map over the grid: tile `t mod 4` on the measure axis, chunk `t / 4` on the channel axis. -/
theorem win1_index_grid : ∀ t : Fin grid0.N, cc0_transform_1 (grid0.coords t) 0 = 0 ∧ cc0_transform_1 (grid0.coords t) 1 = t.val % 4
    ∧ cc0_transform_1 (grid0.coords t) 2 = 0 ∧ cc0_transform_1 (grid0.coords t) 3 = 0
    ∧ cc0_transform_1 (grid0.coords t) 4 = t.val / 4 := by decide +kernel

set_option maxHeartbeats 400000 in
/-- The output block at point `t`, read at `(b, k, p, r, q)`: the array at measure `8 (t mod 4) + k` and channel
    `128 (t / 4) + q`. -/
theorem read_blk1 (a : (pcfg0 (F := F)).Adm) (G : Vec F S1x32x2x2048x1024 .f32) (t : Fin (cfg0 a).N) (b : Fin 1) (k : Fin 8)
    (p : Fin 2) (r : Fin 2048) (q : Fin 128) :
    (((cfg0 a).win 1).blk t).view.read (Elt F) G (ix5 b k p r q)
      = G (ix5 (0 : Fin 1) (⟨8 * (t.val % 4) + k.val, by omega⟩ : Fin 32) p r (⟨128 * (t.val / 4) + q.val, by
          have h := t.isLt; have hN : (cfg0 a).N = 32 := N_0; omega⟩ : Fin 1024)) := by
  refine (View.read_apply _ _).trans ?_
  show G _ = G _
  refine congrArg G (funext fun e => Fin.ext ?_)
  have hi := win1_index_grid t
  match e with
  | ⟨0, _⟩ =>
    show cc0_transform_1 (grid0.coords t) 0 * 1 + 1 * b.val = 0
    rw [hi.1]; omega
  | ⟨1, _⟩ =>
    show cc0_transform_1 (grid0.coords t) 1 * 8 + 1 * k.val = 8 * (t.val % 4) + k.val
    rw [hi.2.1]; omega
  | ⟨2, _⟩ =>
    show cc0_transform_1 (grid0.coords t) 2 * 2 + 1 * p.val = p.val
    rw [hi.2.2.1]; omega
  | ⟨3, _⟩ =>
    show cc0_transform_1 (grid0.coords t) 3 * 2048 + 1 * r.val = r.val
    rw [hi.2.2.2.1]; omega
  | ⟨4, _⟩ =>
    show cc0_transform_1 (grid0.coords t) 4 * 128 + 1 * q.val = 128 * (t.val / 4) + q.val
    rw [hi.2.2.2.2]; omega

/-- The table offsets the body computes over the grid: row `8 (t mod 4) + k`, column `t / 4`. -/
theorem off1_grid : ∀ t : Fin grid0.N, k0_off1 (grid0.coords t) 0 = 8 * (t.val % 4) + 0 ∧ k0_off1 (grid0.coords t) 1 = t.val / 4 := by decide +kernel
theorem off3_grid : ∀ t : Fin grid0.N, k0_off3 (grid0.coords t) 0 = 8 * (t.val % 4) + 1 ∧ k0_off3 (grid0.coords t) 1 = t.val / 4 := by decide +kernel
theorem off5_grid : ∀ t : Fin grid0.N, k0_off5 (grid0.coords t) 0 = 8 * (t.val % 4) + 2 ∧ k0_off5 (grid0.coords t) 1 = t.val / 4 := by decide +kernel
theorem off7_grid : ∀ t : Fin grid0.N, k0_off7 (grid0.coords t) 0 = 8 * (t.val % 4) + 3 ∧ k0_off7 (grid0.coords t) 1 = t.val / 4 := by decide +kernel
theorem off9_grid : ∀ t : Fin grid0.N, k0_off9 (grid0.coords t) 0 = 8 * (t.val % 4) + 4 ∧ k0_off9 (grid0.coords t) 1 = t.val / 4 := by decide +kernel
theorem off11_grid : ∀ t : Fin grid0.N, k0_off11 (grid0.coords t) 0 = 8 * (t.val % 4) + 5 ∧ k0_off11 (grid0.coords t) 1 = t.val / 4 := by decide +kernel
theorem off13_grid : ∀ t : Fin grid0.N, k0_off13 (grid0.coords t) 0 = 8 * (t.val % 4) + 6 ∧ k0_off13 (grid0.coords t) 1 = t.val / 4 := by decide +kernel
theorem off15_grid : ∀ t : Fin grid0.N, k0_off15 (grid0.coords t) 0 = 8 * (t.val % 4) + 7 ∧ k0_off15 (grid0.coords t) 1 = t.val / 4 := by decide +kernel

set_option maxHeartbeats 800000 in
/-- The `k`-th offset point `t` loads is the table's entry `(8 (t mod 4) + k, t / 4)`. -/
theorem offsetsAt_eq (c : Dev nD) (T : TbBuf0 (F := F) c tbM0_0) (t : Fin grid0.N) (k : Fin 8) :
    offsetsAt c (grid0.coords t) T k
      = (T : S32x8.Idx → BitVec 32) (ix2 (⟨8 * (t.val % 4) + k.val, by omega⟩ : Fin 32) (⟨t.val / 4, by
          have h := t.isLt; have hN : grid0.N = 32 := N_0; omega⟩ : Fin 8)) := by
  match k with
  | ⟨0, _⟩ =>
    show tbM0_0.view.readAt (Elt F) (Rect.unit (s := S32x8) (k0_off1 (grid0.coords t)) S1x1.size (k0_off1_inb (grid0.coords t))).toLoadRect T (Shape.Idx.first (numel1_S1x1.symm ▸ Nat.one_pos)) = _
    refine (View.readAt_apply _ _ _).trans ((View.read_apply _ _).trans ?_)
    show T _ = T _
    refine congrArg T (funext fun e => Fin.ext ?_)
    have hi := off1_grid t
    match e with
    | ⟨0, _⟩ =>
      show k0_off1 (grid0.coords t) 0 + 1 * 0 = 8 * (t.val % 4) + 0
      rw [hi.1]
    | ⟨1, _⟩ =>
      show k0_off1 (grid0.coords t) 1 + 1 * 0 = t.val / 4
      rw [hi.2]; omega
  | ⟨1, _⟩ =>
    show tbM0_0.view.readAt (Elt F) (Rect.unit (s := S32x8) (k0_off3 (grid0.coords t)) S1x1.size (k0_off3_inb (grid0.coords t))).toLoadRect T (Shape.Idx.first (numel1_S1x1.symm ▸ Nat.one_pos)) = _
    refine (View.readAt_apply _ _ _).trans ((View.read_apply _ _).trans ?_)
    show T _ = T _
    refine congrArg T (funext fun e => Fin.ext ?_)
    have hi := off3_grid t
    match e with
    | ⟨0, _⟩ =>
      show k0_off3 (grid0.coords t) 0 + 1 * 0 = 8 * (t.val % 4) + 1
      rw [hi.1]
    | ⟨1, _⟩ =>
      show k0_off3 (grid0.coords t) 1 + 1 * 0 = t.val / 4
      rw [hi.2]; omega
  | ⟨2, _⟩ =>
    show tbM0_0.view.readAt (Elt F) (Rect.unit (s := S32x8) (k0_off5 (grid0.coords t)) S1x1.size (k0_off5_inb (grid0.coords t))).toLoadRect T (Shape.Idx.first (numel1_S1x1.symm ▸ Nat.one_pos)) = _
    refine (View.readAt_apply _ _ _).trans ((View.read_apply _ _).trans ?_)
    show T _ = T _
    refine congrArg T (funext fun e => Fin.ext ?_)
    have hi := off5_grid t
    match e with
    | ⟨0, _⟩ =>
      show k0_off5 (grid0.coords t) 0 + 1 * 0 = 8 * (t.val % 4) + 2
      rw [hi.1]
    | ⟨1, _⟩ =>
      show k0_off5 (grid0.coords t) 1 + 1 * 0 = t.val / 4
      rw [hi.2]; omega
  | ⟨3, _⟩ =>
    show tbM0_0.view.readAt (Elt F) (Rect.unit (s := S32x8) (k0_off7 (grid0.coords t)) S1x1.size (k0_off7_inb (grid0.coords t))).toLoadRect T (Shape.Idx.first (numel1_S1x1.symm ▸ Nat.one_pos)) = _
    refine (View.readAt_apply _ _ _).trans ((View.read_apply _ _).trans ?_)
    show T _ = T _
    refine congrArg T (funext fun e => Fin.ext ?_)
    have hi := off7_grid t
    match e with
    | ⟨0, _⟩ =>
      show k0_off7 (grid0.coords t) 0 + 1 * 0 = 8 * (t.val % 4) + 3
      rw [hi.1]
    | ⟨1, _⟩ =>
      show k0_off7 (grid0.coords t) 1 + 1 * 0 = t.val / 4
      rw [hi.2]; omega
  | ⟨4, _⟩ =>
    show tbM0_0.view.readAt (Elt F) (Rect.unit (s := S32x8) (k0_off9 (grid0.coords t)) S1x1.size (k0_off9_inb (grid0.coords t))).toLoadRect T (Shape.Idx.first (numel1_S1x1.symm ▸ Nat.one_pos)) = _
    refine (View.readAt_apply _ _ _).trans ((View.read_apply _ _).trans ?_)
    show T _ = T _
    refine congrArg T (funext fun e => Fin.ext ?_)
    have hi := off9_grid t
    match e with
    | ⟨0, _⟩ =>
      show k0_off9 (grid0.coords t) 0 + 1 * 0 = 8 * (t.val % 4) + 4
      rw [hi.1]
    | ⟨1, _⟩ =>
      show k0_off9 (grid0.coords t) 1 + 1 * 0 = t.val / 4
      rw [hi.2]; omega
  | ⟨5, _⟩ =>
    show tbM0_0.view.readAt (Elt F) (Rect.unit (s := S32x8) (k0_off11 (grid0.coords t)) S1x1.size (k0_off11_inb (grid0.coords t))).toLoadRect T (Shape.Idx.first (numel1_S1x1.symm ▸ Nat.one_pos)) = _
    refine (View.readAt_apply _ _ _).trans ((View.read_apply _ _).trans ?_)
    show T _ = T _
    refine congrArg T (funext fun e => Fin.ext ?_)
    have hi := off11_grid t
    match e with
    | ⟨0, _⟩ =>
      show k0_off11 (grid0.coords t) 0 + 1 * 0 = 8 * (t.val % 4) + 5
      rw [hi.1]
    | ⟨1, _⟩ =>
      show k0_off11 (grid0.coords t) 1 + 1 * 0 = t.val / 4
      rw [hi.2]; omega
  | ⟨6, _⟩ =>
    show tbM0_0.view.readAt (Elt F) (Rect.unit (s := S32x8) (k0_off13 (grid0.coords t)) S1x1.size (k0_off13_inb (grid0.coords t))).toLoadRect T (Shape.Idx.first (numel1_S1x1.symm ▸ Nat.one_pos)) = _
    refine (View.readAt_apply _ _ _).trans ((View.read_apply _ _).trans ?_)
    show T _ = T _
    refine congrArg T (funext fun e => Fin.ext ?_)
    have hi := off13_grid t
    match e with
    | ⟨0, _⟩ =>
      show k0_off13 (grid0.coords t) 0 + 1 * 0 = 8 * (t.val % 4) + 6
      rw [hi.1]
    | ⟨1, _⟩ =>
      show k0_off13 (grid0.coords t) 1 + 1 * 0 = t.val / 4
      rw [hi.2]; omega
  | ⟨7, _⟩ =>
    show tbM0_0.view.readAt (Elt F) (Rect.unit (s := S32x8) (k0_off15 (grid0.coords t)) S1x1.size (k0_off15_inb (grid0.coords t))).toLoadRect T (Shape.Idx.first (numel1_S1x1.symm ▸ Nat.one_pos)) = _
    refine (View.readAt_apply _ _ _).trans ((View.read_apply _ _).trans ?_)
    show T _ = T _
    refine congrArg T (funext fun e => Fin.ext ?_)
    have hi := off15_grid t
    match e with
    | ⟨0, _⟩ =>
      show k0_off15 (grid0.coords t) 0 + 1 * 0 = 8 * (t.val % 4) + 7
      rw [hi.1]
    | ⟨1, _⟩ =>
      show k0_off15 (grid0.coords t) 1 + 1 * 0 = t.val / 4
      rw [hi.2]; omega

set_option maxHeartbeats 800000 in
/-- ONE BLOCK, for any table and any spectrogram: the output block cut from the doubled input block at the offsets
    point `t` loads is the block of the rolled spectrogram the output window names at `t`. -/
theorem cut_block_eq (a : (pcfg0 (F := F)).Adm) (c : Dev nD) (X : Vec F S1x2x2048x1024 .f32) (T : TbBuf0 (F := F) c tbM0_0)
    (t : Fin (cfg0 a).N) :
    ((cfg0 a).win 1).cut (grid0.coords t)
        (outBlock (doubled ((((cfg0 a).win 0).blk t).view.read (Elt F) X)) (offsetsAt c (grid0.coords t) T))
      = (((cfg0 a).win 1).blk t).view.read (Elt F) (Cert.Dedisp.rolled X (T : S32x8.Idx → BitVec 32)) := by
  funext y
  obtain ⟨b, k, p, r, q, rfl⟩ : ∃ (b : Fin 1) (k : Fin 8) (p : Fin 2) (r : Fin 2048) (q : Fin 128), y = ix5 b k p r q :=
    ⟨_, _, _, _, _, eq_ix5 (n0 := 1) (n1 := 8) (n2 := 2) (n3 := 2048) (n4 := 128) y⟩
  have hN : (cfg0 a).N = 32 := N_0
  have ht := t.isLt
  refine Eq.trans ?_ (read_blk1 a (Cert.Dedisp.rolled X (T : S32x8.Idx → BitVec 32)) t b k p r q).symm
  show (((cfg0 a).win 0).blk t).view.read (Elt F) X (ix4 (0 : Fin 1) p
      (⟨((offsetsAt c (grid0.coords t) T k).toNat + r.val) % 4096 % 2048, Nat.mod_lt _ (by decide)⟩ : Fin 2048) q) = _
  refine (read_blk0 a X t p _ q).trans ?_
  show X _ = X (ix4 (0 : Fin 1) p
      (⟨(((T : S32x8.Idx → BitVec 32) (ix2 (⟨8 * (t.val % 4) + k.val, by omega⟩ : Fin 32)
          (⟨(128 * (t.val / 4) + q.val) / 128, by omega⟩ : Fin 8))).toNat + r.val) % 2048, Nat.mod_lt _ (by decide)⟩ : Fin 2048)
      (⟨128 * (t.val / 4) + q.val, by omega⟩ : Fin 1024))
  rw [offsetsAt_eq c T t k,
    show (⟨(128 * (t.val / 4) + q.val) / 128, by omega⟩ : Fin 8) = (⟨t.val / 4, by omega⟩ : Fin 8) from Fin.ext (by
      show (128 * (t.val / 4) + q.val) / 128 = t.val / 4
      omega)]
  generalize ((T : S32x8.Idx → BitVec 32) (ix2 (⟨8 * (t.val % 4) + k.val, by omega⟩ : Fin 32) (⟨t.val / 4, by omega⟩ : Fin 8))).toNat = n
  refine congrArg X (funext fun e => Fin.ext ?_)
  match e with
  | ⟨0, _⟩ => rfl
  | ⟨1, _⟩ => rfl
  | ⟨2, _⟩ =>
    show (n + r.val) % 4096 % 2048 = (n + r.val) % 2048
    omega
  | ⟨3, _⟩ => rfl

/-- The spectrogram as the region finds it, at its literal type. -/
abbrev xarr (c : Dev nD) : Vec F S1x2x2048x1024 .f32 := V m c main_arg0

/-- What grid point `t` writes back is the block of the rolled spectrogram its window names. -/
theorem flushed_eq (c : Dev nD) (t : Fin (cfgM m (ok m)).N) :
    (dats m (ok m) (hyps m) 0 c).flushed 1 t
      = (((cfgM m (ok m)).win 1).blk t).view.read (Elt F)
          (Cert.Dedisp.rolled (xarr m c) (tbl m 0 : S32x8.Idx → BitVec 32)) := by
  show ((cfgM m (ok m)).win 1).cut (grid0.coords t) ((dats m (ok m) (hyps m) 0 c).after 1 t) = _
  rw [after0_1, out_after]
  exact cut_block_eq (adm m (ok m)) c (xarr m c) (tbl m 0) t

end Cert.KernelIdeal.Hand

end
-- ==== Proof.KRun.lean ====
/-
  The blocks tile the result array: array index `(0, d, p, τ, f)` lies in the block of grid point `4 (f / 128) + d / 8`,
  and every grid point writes its block back. So the result array after the run is the rolled spectrogram, the delay
  table is as the host left it, and the arguments are unchanged.
-/
import proofs.«416176_j68745246540395_3_alg».proof.Proof.KFinal
import Idealize.ShloMosaic.Lib.Pipeline.Value

set_option maxRecDepth 16384

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen

variable {F : FTy → Type} [FloatOps F]
variable (m : (ℓ : Loc nD τ sig) → Buf (Elt F) ℓ) (ρ : Dev nD → PrngReg)

/-- The output window's block index at grid point `t`: tile `t mod 4` on the measure axis, chunk `t / 4` on the
    channel axis, zero elsewhere. Decided over the 32 grid points, at any contents of the table. -/
private theorem index1_at (a : (pcfg0 (F := F)).Adm) : ∀ t : Fin (cfg0 a).N,
    ((cfg0 a).win 1).index t = ![0, t.val % 4, 0, 0, t.val / 4] :=
  (by decide +kernel : ∀ t : Fin grid0.N, cc0_transform_1 (grid0.coords t) = ![0, t.val % 4, 0, 0, t.val / 4])

/-- The blocks tile the result array: index `(0, d, p, τ, f)` lies in the block of point `4 (f / 128) + d / 8`, whose
    measures are `8 (d / 8) … 8 (d / 8) + 7` and whose channels are `128 (f / 128) … 128 (f / 128) + 127`; and every point
    writes its block back. -/
private theorem cover1 (a : (pcfg0 (F := F)).Adm) (i : S1x32x2x2048x1024.Idx) :
    ∃ t : Fin (cfg0 a).N, ((cfg0 a).win 1).flush t = true ∧ i ∈ (((cfg0 a).win 1).blk t).view.set := by
  have h0 : (i 0).val < 1 := (i 0).isLt
  have h1 : (i 1).val < 32 := (i 1).isLt
  have h2 : (i 2).val < 2 := (i 2).isLt
  have h3 : (i 3).val < 2048 := (i 3).isLt
  have h4 : (i 4).val < 1024 := (i 4).isLt
  have hN : (cfg0 a).N = 32 := N_0
  obtain ⟨t, ht⟩ : ∃ t : Fin (cfg0 a).N, t.val = 4 * ((i 4).val / 128) + (i 1).val / 8 :=
    ⟨⟨4 * ((i 4).val / 128) + (i 1).val / 8, by rw [hN]; omega⟩, rfl⟩
  have hidx := index1_at a t
  have e0 : ((cfg0 a).win 1).index t (0 : Fin 5) = 0 := congrFun hidx (0 : Fin 5)
  have e1 : ((cfg0 a).win 1).index t (1 : Fin 5) = t.val % 4 := congrFun hidx (1 : Fin 5)
  have e2 : ((cfg0 a).win 1).index t (2 : Fin 5) = 0 := congrFun hidx (2 : Fin 5)
  have e3 : ((cfg0 a).win 1).index t (3 : Fin 5) = 0 := congrFun hidx (3 : Fin 5)
  have e4 : ((cfg0 a).win 1).index t (4 : Fin 5) = t.val / 4 := congrFun hidx (4 : Fin 5)
  refine ⟨t, flush0_1 a t, ?_⟩
  have hs : (((cfg0 a).win 1).blk t).view.set = (((cfg0 a).win 1).rect t).set := View.set_slice_whole main_v17 _
  rw [hs]
  refine Rect.mem_set_unit.mpr ?_
  intro b
  match b with
  | ⟨0, _⟩ =>
    show ((cfg0 a).win 1).index t (0 : Fin 5) * 1 ≤ (i 0).val ∧ (i 0).val < ((cfg0 a).win 1).index t (0 : Fin 5) * 1 + 1
    rw [e0]; omega
  | ⟨1, _⟩ =>
    show ((cfg0 a).win 1).index t (1 : Fin 5) * 8 ≤ (i 1).val ∧ (i 1).val < ((cfg0 a).win 1).index t (1 : Fin 5) * 8 + 8
    rw [e1]; omega
  | ⟨2, _⟩ =>
    show ((cfg0 a).win 1).index t (2 : Fin 5) * 2 ≤ (i 2).val ∧ (i 2).val < ((cfg0 a).win 1).index t (2 : Fin 5) * 2 + 2
    rw [e2]; omega
  | ⟨3, _⟩ =>
    show ((cfg0 a).win 1).index t (3 : Fin 5) * 2048 ≤ (i 3).val ∧ (i 3).val < ((cfg0 a).win 1).index t (3 : Fin 5) * 2048 + 2048
    rw [e3]; omega
  | ⟨4, _⟩ =>
    show ((cfg0 a).win 1).index t (4 : Fin 5) * 128 ≤ (i 4).val ∧ (i 4).val < ((cfg0 a).win 1).index t (4 : Fin 5) * 128 + 128
    rw [e4]; omega

/-- The spectrogram as the region finds it is the launched argument: no host operation before the region writes it. -/
private theorem xarr_eq (c : Dev nD) : xarr m c = m ((c.tc : Thread nD τ).loc main_arg0) := V_main_arg0 m c

/-- The result array after the run is the rolled spectrogram. -/
theorem final (c : Dev nD) :
    (dats m (ok m) (hyps m) 0 c).arrAt 1 (cfgM m (ok m)).N
      = Cert.Dedisp.rolled (xarr m c) (tbl m 0 : S32x8.Idx → BitVec 32) := by
  exact (dats m (ok m) (hyps m) 0 c).arrAt_eq_of_cover 1
    (Cert.Dedisp.rolled (xarr m c) (tbl m 0 : S32x8.Idx → BitVec 32))
    (fun t _ => flushed_eq m c t) (fun i => cover1 (adm m (ok m)) i)

/-- Every weakly fair execution of the kernel's program terminates, with the result array at the rolled
    spectrogram, the delay table at the host chain's value, and the arguments unchanged. -/
theorem run : θ_run (defs (F := F)) (onTc (τ := τ) (main (F := F))) ⟨m, fun _ => 0, ρ⟩ (fun r => ∀ c : Dev nD,
      r.2.mem ((c.tc : Thread nD τ).loc main_v17)
          = Cert.Dedisp.rolled (m ((c.tc : Thread nD τ).loc main_arg0))
              (Cert.Dedisp.shiftTab (m ((c.tc : Thread nD τ).loc main_arg1)) (m ((c.tc : Thread nD τ).loc main_arg2)))
      ∧ r.2.mem ((c.tc : Thread nD τ).loc main_v9)
          = Cert.Dedisp.delays (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ?_) (run_main m ρ (ok m) (hyps m))
  obtain rfl : c = 0 := Subsingleton.elim _ _
  refine ⟨?_, ?_, ?_, ?_, ?_⟩
  · -- the result array: the rolled spectrogram of the region's arrays, which are the launched arguments and the table
    refine ((h 0).1 1).trans ((final m 0).trans ?_)
    rw [xarr_eq m 0, tbl_eq m]
  · exact ((h 0).2 main_v9 (by decide : main_v9 ∈ Pipeline.restRefs sig spec0)).trans (delays_eq m 0)
  · exact ((h 0).1 0).trans (((dats m (ok m) (hyps m) 0 0).arrAt_in 0 rfl _).trans
      ((A_eq m (ok m) (hyps m) 0 0).trans (V_main_arg0 m 0)))
  · exact ((h 0).2 main_arg1 (by decide : main_arg1 ∈ Pipeline.restRefs sig spec0)).trans (V_main_arg1 m 0)
  · exact ((h 0).2 main_arg2 (by decide : main_arg2 ∈ Pipeline.restRefs sig spec0)).trans (V_main_arg2 m 0)

end Cert.KernelIdeal.Hand

end
-- ==== Proof.RefRun.lean ====
/-
  The reference program's run: it is a straight line of host operations (its module-local functions unfolded at
  their calls), so every weakly fair execution ends with each buffer at the operations' composed value of the
  arguments. Read at the two results: the gathered spectrogram is `takeAlong x (gatherIdx (avgInt dm fs))` and
  the delay table is `delays dm fs`; the arguments are written by no operation.
-/
import proofs.«416176_j68745246540395_3_alg».proof.ReferenceIdeal
import proofs.«416176_j68745246540395_3_alg».proof.Proof.Gen.ReferenceIdeal
import proofs.«416176_j68745246540395_3_alg».proof.Proof.Spec
import Idealize.ShloMosaic.Lib.StableHlo.Run

noncomputable section

namespace Cert.ReferenceIdeal.Hand

open Idealize.ShloMosaic Idealize.ShloMosaic.TcCoe Idealize.SL.Sem Idealize.ShloMosaic.StableHlo
open Cert.ReferenceIdeal Cert.ReferenceIdeal.Gen

variable {F : FTy → Type} [FloatOps F]

/-- The program's operations in order, the module-local functions unfolded at their calls: the delay table
    (twelve), the chunk means (six), their truncation toward zero (six: the comparison with zero, the ceiling, the
    floor, the choice), the conversion to words and the index grid `time + offset` (ten), the remainder by 2048 with
    the divisor's sign (twenty-one), the two operands' broadcasts, and the gather along the time axis (twenty-four:
    the negative indices moved up, the bounds test, the gather, the choice against not-a-number). -/
abbrev ops : List (HloOp τ sig (Elt F)) :=
  [ unary main_arg1 main_v0 (broadcastInDim S32x1 ![0] bcast_S32_S32x1_0 : (⟨S32, .f32⟩ : BufTy).Contents (Elt F) → (⟨S32x1, .f32⟩ : BufTy).Contents (Elt F)),
    unary main_arg2 main_v1 (broadcastInDim S1x1024 ![1] bcast_S1024_S1x1024_1 : (⟨S1024, .f32⟩ : BufTy).Contents (Elt F) → (⟨S1x1024, .f32⟩ : BufTy).Contents (Elt F)),
    unary main_v0 main_v2 (broadcastInDim S32x1024 ![0, 1] bcast_S32x1_S32x1024_0_1 : (⟨S32x1, .f32⟩ : BufTy).Contents (Elt F) → (⟨S32x1024, .f32⟩ : BufTy).Contents (Elt F)),
    unary main_v1 main_v3 (broadcastInDim S32x1024 ![0, 1] bcast_S1x1024_S32x1024_0_1 : (⟨S1x1024, .f32⟩ : BufTy).Contents (Elt F) → (⟨S32x1024, .f32⟩ : BufTy).Contents (Elt F)),
    binary main_v2 main_v3 main_v4 (mulf : (⟨S32x1024, .f32⟩ : BufTy).Contents (Elt F) → (⟨S32x1024, .f32⟩ : BufTy).Contents (Elt F) → (⟨S32x1024, .f32⟩ : BufTy).Contents (Elt F)),
    nullary main_cst (constant S_ .f32 0x447A0000#32),
    unary main_cst main_v5 (broadcastInDim S32x1024 ![] bcast_S_S32x1024 : (⟨S_, .f32⟩ : BufTy).Contents (Elt F) → (⟨S32x1024, .f32⟩ : BufTy).Contents (Elt F)),
    binary main_v4 main_v5 main_v6 (Host.divf : (⟨S32x1024, .f32⟩ : BufTy).Contents (Elt F) → (⟨S32x1024, .f32⟩ : BufTy).Contents (Elt F) → (⟨S32x1024, .f32⟩ : BufTy).Contents (Elt F)),
    unary main_v6 main_v7 (Host.tanh : (⟨S32x1024, .f32⟩ : BufTy).Contents (Elt F) → (⟨S32x1024, .f32⟩ : BufTy).Contents (Elt F)),
    nullary main_cst_0 (constant S_ .f32 0x43FA0000#32),
    unary main_cst_0 main_v8 (broadcastInDim S32x1024 ![] bcast_S_S32x1024 : (⟨S_, .f32⟩ : BufTy).Contents (Elt F) → (⟨S32x1024, .f32⟩ : BufTy).Contents (Elt F)),
    binary main_v7 main_v8 main_v9 (mulf : (⟨S32x1024, .f32⟩ : BufTy).Contents (Elt F) → (⟨S32x1024, .f32⟩ : BufTy).Contents (Elt F) → (⟨S32x1024, .f32⟩ : BufTy).Contents (Elt F)),
    reshape main_v9 main_v10 rfl shapeCasts_S32x1024_S32x8x128,
    nullary main_cst_1 (constant S_ .f32 0x00000000#32),
    binary main_v10 main_cst_1 main_v11 ((fun x v => Host.reduceAdd x v reducesTo_S32x8x128_S32x8_d2 h_S_) : (⟨S32x8x128, .f32⟩ : BufTy).Contents (Elt F) → (⟨S_, .f32⟩ : BufTy).Contents (Elt F) → (⟨S32x8, .f32⟩ : BufTy).Contents (Elt F)),
    nullary main_cst_2 (constant S_ .f32 0x43000000#32),
    unary main_cst_2 main_v12 (broadcastInDim S32x8 ![] bcast_S_S32x8 : (⟨S_, .f32⟩ : BufTy).Contents (Elt F) → (⟨S32x8, .f32⟩ : BufTy).Contents (Elt F)),
    binary main_v11 main_v12 main_v13 (Host.divf : (⟨S32x8, .f32⟩ : BufTy).Contents (Elt F) → (⟨S32x8, .f32⟩ : BufTy).Contents (Elt F) → (⟨S32x8, .f32⟩ : BufTy).Contents (Elt F)),
    TRef.nullary main_call0.cst (constant S_ .f32 0x00000000#32),
    TRef.unary main_call0.cst main_call0.v0 (broadcastInDim S32x8 ![] bcast_S_S32x8),
    TRef.binary (.of main_v13 : TRef sig ⟨S32x8, .f32⟩) main_call0.v0 main_call0.v1 (cmpf .olt),
    TRef.unary (.of main_v13 : TRef sig ⟨S32x8, .f32⟩) main_call0.v2 Host.ceil,
    TRef.unary (.of main_v13 : TRef sig ⟨S32x8, .f32⟩) main_call0.v3 Host.floor,
    TRef.ternary main_call0.v1 main_call0.v2 main_call0.v3 main_call0.call0.v0 select,
    unary main_v14 main_v15 (fptosi 32 : (⟨S32x8, .f32⟩ : BufTy).Contents (Elt F) → (⟨S32x8, .i32⟩ : BufTy).Contents (Elt F)),
    unary main_v15 main_v16 (broadcastInDim S32x8x128 ![0, 1] bcast_S32x8_S32x8x128_0_1 : (⟨S32x8, .i32⟩ : BufTy).Contents (Elt F) → (⟨S32x8x128, .i32⟩ : BufTy).Contents (Elt F)),
    reshape main_v16 main_v17 rfl shapeCasts_S32x8x128_S32x1024,
    nullary main_v18 (iotaInDim S2048 32 0),
    unary main_v18 main_v19 (broadcastInDim S1x2048x1 ![1] bcast_S2048_S1x2048x1_1 : (⟨S2048, .i32⟩ : BufTy).Contents (Elt F) → (⟨S1x2048x1, .i32⟩ : BufTy).Contents (Elt F)),
    unary main_v17 main_v20 (broadcastInDim S32x1x1024 ![0, 2] bcast_S32x1024_S32x1x1024_0_2 : (⟨S32x1024, .i32⟩ : BufTy).Contents (Elt F) → (⟨S32x1x1024, .i32⟩ : BufTy).Contents (Elt F)),
    unary main_v19 main_v21 (broadcastInDim S32x2048x1024 ![0, 1, 2] bcast_S1x2048x1_S32x2048x1024_0_1_2 : (⟨S1x2048x1, .i32⟩ : BufTy).Contents (Elt F) → (⟨S32x2048x1024, .i32⟩ : BufTy).Contents (Elt F)),
    unary main_v20 main_v22 (broadcastInDim S32x2048x1024 ![0, 1, 2] bcast_S32x1x1024_S32x2048x1024_0_1_2 : (⟨S32x1x1024, .i32⟩ : BufTy).Contents (Elt F) → (⟨S32x2048x1024, .i32⟩ : BufTy).Contents (Elt F)),
    binary main_v21 main_v22 main_v23 (addi : (⟨S32x2048x1024, .i32⟩ : BufTy).Contents (Elt F) → (⟨S32x2048x1024, .i32⟩ : BufTy).Contents (Elt F) → (⟨S32x2048x1024, .i32⟩ : BufTy).Contents (Elt F)),
    nullary main_c (constantI S_ 32 2048#32),
    TRef.unary (.of main_c : TRef sig ⟨S_, .i32⟩) main_call1.v0 id,
    TRef.nullary main_call1.c (constantI S_ 32 0#32),
    TRef.binary main_call1.v0 main_call1.c main_call1.v1 (cmpi .eq),
    TRef.nullary main_call1.c_0 (constantI S_ 32 1#32),
    TRef.ternary main_call1.v1 main_call1.c_0 main_call1.v0 main_call1.call0.v0 select,
    TRef.unary main_call1.call0.v0 main_call1.v3 (broadcastInDim S32x2048x1024 ![] bcast_S_S32x2048x1024),
    TRef.binary (.of main_v23 : TRef sig ⟨S32x2048x1024, .i32⟩) main_call1.v3 main_call1.v4 Host.remsi,
    TRef.nullary main_call1.c_1 (constantI S_ 32 0#32),
    TRef.unary main_call1.c_1 main_call1.v5 (broadcastInDim S32x2048x1024 ![] bcast_S_S32x2048x1024),
    TRef.binary main_call1.v4 main_call1.v5 main_call1.v6 (cmpi .ne),
    TRef.nullary main_call1.c_2 (constantI S_ 32 0#32),
    TRef.unary main_call1.c_2 main_call1.v7 (broadcastInDim S32x2048x1024 ![] bcast_S_S32x2048x1024),
    TRef.binary main_call1.v4 main_call1.v7 main_call1.v8 (cmpi .slt),
    TRef.nullary main_call1.c_3 (constantI S_ 32 0#32),
    TRef.binary main_call1.call0.v0 main_call1.c_3 main_call1.v9 (cmpi .slt),
    TRef.unary main_call1.v9 main_call1.v10 (broadcastInDim S32x2048x1024 ![] bcast_S_S32x2048x1024),
    TRef.binary main_call1.v8 main_call1.v10 main_call1.v11 (cmpi .ne),
    TRef.binary main_call1.v11 main_call1.v6 main_call1.v12 andi,
    TRef.unary main_call1.call0.v0 main_call1.v13 (broadcastInDim S32x2048x1024 ![] bcast_S_S32x2048x1024),
    TRef.binary main_call1.v4 main_call1.v13 main_call1.v14 addi,
    TRef.ternary main_call1.v12 main_call1.v14 main_call1.v4 main_call1.v15 select,
    unary main_arg0 main_v25 (broadcastInDim S1x1x2x2048x1024 ![0, 2, 3, 4] bcast_S1x2x2048x1024_S1x1x2x2048x1024_0_2_3_4 : (⟨S1x2x2048x1024, .f32⟩ : BufTy).Contents (Elt F) → (⟨S1x1x2x2048x1024, .f32⟩ : BufTy).Contents (Elt F)),
    unary main_v24 main_v26 (broadcastInDim S1x32x1x2048x1024 ![1, 3, 4] bcast_S32x2048x1024_S1x32x1x2048x1024_1_3_4 : (⟨S32x2048x1024, .i32⟩ : BufTy).Contents (Elt F) → (⟨S1x32x1x2048x1024, .i32⟩ : BufTy).Contents (Elt F)),
    TRef.nullary main_call2.c (constantI S_ 32 0#32),
    TRef.unary main_call2.c main_call2.v0 (broadcastInDim S1x32x1x2048x1024 ![] bcast_S_S1x32x1x2048x1024),
    TRef.binary (.of main_v26 : TRef sig ⟨S1x32x1x2048x1024, .i32⟩) main_call2.v0 main_call2.v1 (cmpi .slt),
    TRef.nullary main_call2.c_0 (constantI S_ 32 2048#32),
    TRef.unary main_call2.c_0 main_call2.v2 (broadcastInDim S1x32x1x2048x1024 ![] bcast_S_S1x32x1x2048x1024),
    TRef.binary (.of main_v26 : TRef sig ⟨S1x32x1x2048x1024, .i32⟩) main_call2.v2 main_call2.v3 addi,
    TRef.ternary main_call2.v1 main_call2.v3 (.of main_v26 : TRef sig ⟨S1x32x1x2048x1024, .i32⟩) main_call2.v4 select,
    TRef.reshape main_call2.v4 main_call2.v5 rfl shapeCasts_S1x32x1x2048x1024_S32x2048x1024x1,
    TRef.reshape (.of main_v25 : TRef sig ⟨S1x1x2x2048x1024, .f32⟩) main_call2.v6 rfl shapeCasts_S1x1x2x2048x1024_S1x2x2048x1024,
    TRef.nullary main_call2.c_1 (constantI S1 32 2047#32),
    TRef.nullary main_call2.c_2 (constantI S_ 32 0#32),
    TRef.unary main_call2.c_2 main_call2.v7 (broadcastInDim S32x2048x1024x1 ![] bcast_S_S32x2048x1024x1),
    TRef.binary main_call2.v5 main_call2.v7 main_call2.v8 (cmpi .sge),
    TRef.unary main_call2.c_1 main_call2.v9 (broadcastInDim S1x1x1x1 ![3] bcast_S1_S1x1x1x1_3),
    TRef.unary main_call2.v9 main_call2.v10 (broadcastInDim S32x2048x1024x1 ![0, 1, 2, 3] bcast_S1x1x1x1_S32x2048x1024x1_0_1_2_3),
    TRef.binary main_call2.v5 main_call2.v10 main_call2.v11 (cmpi .sle),
    TRef.binary main_call2.v8 main_call2.v11 main_call2.v12 andi,
    TRef.nullary main_call2.c_3 (constantI S_ 1 1#1),
    TRef.binary main_call2.v12 main_call2.c_3 main_call2.v13 (fun x v => Host.reduce IntOp.andi x v reducesTo_S32x2048x1024x1_S32x2048x1024_d3 h_S_),
    TRef.binary main_call2.v6 main_call2.v5 main_call2.v14 (fun x i => Host.gather gather_S1x2x2048x1024_S32x2048x1024x1_S1x32x2x2048x1024_02_2_3_2_2_3_1211 x i),
    TRef.unary main_call2.v13 main_call2.v15 (broadcastInDim S1x32x2x2048x1024 ![1, 3, 4] bcast_S32x2048x1024_S1x32x2x2048x1024_1_3_4),
    TRef.nullary main_call2.cst (constant S_ .f32 0x7FC00000#32),
    TRef.unary main_call2.cst main_call2.v16 (broadcastInDim S1x32x2x2048x1024 ![] bcast_S_S1x32x2x2048x1024),
    TRef.ternary main_call2.v15 main_call2.v14 main_call2.v16 main_call2.v17 select ]

set_option maxRecDepth 4096 in
set_option maxHeartbeats 4000000 in
/-- The program is that straight line: the module-local functions' definitions unfolded at their calls, both sides are
    one chain of steps once sequencing is reassociated. -/
theorem main_eq (c : Dev nD) : main (F := F) c = seq ops := by
  simp only [main, fn_trunc.body, fn_where.body, fn_where_0.body, fn_remainder.body, fn_take_along_axis.body,
    seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., unary_bufs_sub .., unary_bufs_sub .., unary_bufs_sub .., binary_bufs_sub .., nullary_bufs_sub .., unary_bufs_sub .., binary_bufs_sub .., unary_bufs_sub .., nullary_bufs_sub .., unary_bufs_sub .., binary_bufs_sub .., reshape_bufs_sub .., nullary_bufs_sub .., binary_bufs_sub .., nullary_bufs_sub .., unary_bufs_sub .., binary_bufs_sub .., nullary_bufs_sub .., unary_bufs_sub .., binary_bufs_sub .., unary_bufs_sub .., unary_bufs_sub .., ternary_bufs_sub .., unary_bufs_sub .., unary_bufs_sub .., reshape_bufs_sub .., nullary_bufs_sub .., unary_bufs_sub .., unary_bufs_sub .., unary_bufs_sub .., unary_bufs_sub .., binary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., unary_bufs_sub .., unary_bufs_sub .., nullary_bufs_sub .., unary_bufs_sub .., binary_bufs_sub .., nullary_bufs_sub .., unary_bufs_sub .., binary_bufs_sub .., ternary_bufs_sub .., reshape_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

/-- Every weakly fair execution of the program terminates, and every final state has each buffer at the
    operations' fold over the launch contents. -/
theorem run_main (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

attribute [local irreducible] Host.reduce Host.reduceAdd Host.gather in
set_option maxRecDepth 8192 in
set_option maxHeartbeats 4000000 in
/-- The delay table's buffer after the line: the twelve operations that compute it composed, no later one
    writing it. -/
theorem delays_eq (V : Valuation τ sig (Elt F)) :
    after ops V (main_v9 : DevRef τ sig)
      = Cert.Dedisp.delays (V (main_arg1 : DevRef τ sig)) (V (main_arg2 : DevRef τ sig)) := by
  after_results_simp
  rfl

set_option maxRecDepth 8192 in
set_option maxHeartbeats 4000000 in
theorem arg0_eq (V : Valuation τ sig (Elt F)) :
    after ops V (main_arg0 : DevRef τ sig) = V (main_arg0 : DevRef τ sig) := by
  after_results_simp

set_option maxRecDepth 8192 in
set_option maxHeartbeats 4000000 in
theorem arg1_eq (V : Valuation τ sig (Elt F)) :
    after ops V (main_arg1 : DevRef τ sig) = V (main_arg1 : DevRef τ sig) := by
  after_results_simp

set_option maxRecDepth 8192 in
set_option maxHeartbeats 4000000 in
theorem arg2_eq (V : Valuation τ sig (Elt F)) :
    after ops V (main_arg2 : DevRef τ sig) = V (main_arg2 : DevRef τ sig) := by
  after_results_simp

/-- The line in three stretches: through the truncated chunk means as words; from them to the gather's indices;
    the gather. -/
abbrev opsA : List (HloOp τ sig (Elt F)) :=
  [ unary main_arg1 main_v0 (broadcastInDim S32x1 ![0] bcast_S32_S32x1_0 : (⟨S32, .f32⟩ : BufTy).Contents (Elt F) → (⟨S32x1, .f32⟩ : BufTy).Contents (Elt F)),
    unary main_arg2 main_v1 (broadcastInDim S1x1024 ![1] bcast_S1024_S1x1024_1 : (⟨S1024, .f32⟩ : BufTy).Contents (Elt F) → (⟨S1x1024, .f32⟩ : BufTy).Contents (Elt F)),
    unary main_v0 main_v2 (broadcastInDim S32x1024 ![0, 1] bcast_S32x1_S32x1024_0_1 : (⟨S32x1, .f32⟩ : BufTy).Contents (Elt F) → (⟨S32x1024, .f32⟩ : BufTy).Contents (Elt F)),
    unary main_v1 main_v3 (broadcastInDim S32x1024 ![0, 1] bcast_S1x1024_S32x1024_0_1 : (⟨S1x1024, .f32⟩ : BufTy).Contents (Elt F) → (⟨S32x1024, .f32⟩ : BufTy).Contents (Elt F)),
    binary main_v2 main_v3 main_v4 (mulf : (⟨S32x1024, .f32⟩ : BufTy).Contents (Elt F) → (⟨S32x1024, .f32⟩ : BufTy).Contents (Elt F) → (⟨S32x1024, .f32⟩ : BufTy).Contents (Elt F)),
    nullary main_cst (constant S_ .f32 0x447A0000#32),
    unary main_cst main_v5 (broadcastInDim S32x1024 ![] bcast_S_S32x1024 : (⟨S_, .f32⟩ : BufTy).Contents (Elt F) → (⟨S32x1024, .f32⟩ : BufTy).Contents (Elt F)),
    binary main_v4 main_v5 main_v6 (Host.divf : (⟨S32x1024, .f32⟩ : BufTy).Contents (Elt F) → (⟨S32x1024, .f32⟩ : BufTy).Contents (Elt F) → (⟨S32x1024, .f32⟩ : BufTy).Contents (Elt F)),
    unary main_v6 main_v7 (Host.tanh : (⟨S32x1024, .f32⟩ : BufTy).Contents (Elt F) → (⟨S32x1024, .f32⟩ : BufTy).Contents (Elt F)),
    nullary main_cst_0 (constant S_ .f32 0x43FA0000#32),
    unary main_cst_0 main_v8 (broadcastInDim S32x1024 ![] bcast_S_S32x1024 : (⟨S_, .f32⟩ : BufTy).Contents (Elt F) → (⟨S32x1024, .f32⟩ : BufTy).Contents (Elt F)),
    binary main_v7 main_v8 main_v9 (mulf : (⟨S32x1024, .f32⟩ : BufTy).Contents (Elt F) → (⟨S32x1024, .f32⟩ : BufTy).Contents (Elt F) → (⟨S32x1024, .f32⟩ : BufTy).Contents (Elt F)),
    reshape main_v9 main_v10 rfl shapeCasts_S32x1024_S32x8x128,
    nullary main_cst_1 (constant S_ .f32 0x00000000#32),
    binary main_v10 main_cst_1 main_v11 ((fun x v => Host.reduceAdd x v reducesTo_S32x8x128_S32x8_d2 h_S_) : (⟨S32x8x128, .f32⟩ : BufTy).Contents (Elt F) → (⟨S_, .f32⟩ : BufTy).Contents (Elt F) → (⟨S32x8, .f32⟩ : BufTy).Contents (Elt F)),
    nullary main_cst_2 (constant S_ .f32 0x43000000#32),
    unary main_cst_2 main_v12 (broadcastInDim S32x8 ![] bcast_S_S32x8 : (⟨S_, .f32⟩ : BufTy).Contents (Elt F) → (⟨S32x8, .f32⟩ : BufTy).Contents (Elt F)),
    binary main_v11 main_v12 main_v13 (Host.divf : (⟨S32x8, .f32⟩ : BufTy).Contents (Elt F) → (⟨S32x8, .f32⟩ : BufTy).Contents (Elt F) → (⟨S32x8, .f32⟩ : BufTy).Contents (Elt F)),
    TRef.nullary main_call0.cst (constant S_ .f32 0x00000000#32),
    TRef.unary main_call0.cst main_call0.v0 (broadcastInDim S32x8 ![] bcast_S_S32x8),
    TRef.binary (.of main_v13 : TRef sig ⟨S32x8, .f32⟩) main_call0.v0 main_call0.v1 (cmpf .olt),
    TRef.unary (.of main_v13 : TRef sig ⟨S32x8, .f32⟩) main_call0.v2 Host.ceil,
    TRef.unary (.of main_v13 : TRef sig ⟨S32x8, .f32⟩) main_call0.v3 Host.floor,
    TRef.ternary main_call0.v1 main_call0.v2 main_call0.v3 main_call0.call0.v0 select,
    unary main_v14 main_v15 (fptosi 32 : (⟨S32x8, .f32⟩ : BufTy).Contents (Elt F) → (⟨S32x8, .i32⟩ : BufTy).Contents (Elt F)) ]

abbrev opsB : List (HloOp τ sig (Elt F)) :=
  [ unary main_v15 main_v16 (broadcastInDim S32x8x128 ![0, 1] bcast_S32x8_S32x8x128_0_1 : (⟨S32x8, .i32⟩ : BufTy).Contents (Elt F) → (⟨S32x8x128, .i32⟩ : BufTy).Contents (Elt F)),
    reshape main_v16 main_v17 rfl shapeCasts_S32x8x128_S32x1024,
    nullary main_v18 (iotaInDim S2048 32 0),
    unary main_v18 main_v19 (broadcastInDim S1x2048x1 ![1] bcast_S2048_S1x2048x1_1 : (⟨S2048, .i32⟩ : BufTy).Contents (Elt F) → (⟨S1x2048x1, .i32⟩ : BufTy).Contents (Elt F)),
    unary main_v17 main_v20 (broadcastInDim S32x1x1024 ![0, 2] bcast_S32x1024_S32x1x1024_0_2 : (⟨S32x1024, .i32⟩ : BufTy).Contents (Elt F) → (⟨S32x1x1024, .i32⟩ : BufTy).Contents (Elt F)),
    unary main_v19 main_v21 (broadcastInDim S32x2048x1024 ![0, 1, 2] bcast_S1x2048x1_S32x2048x1024_0_1_2 : (⟨S1x2048x1, .i32⟩ : BufTy).Contents (Elt F) → (⟨S32x2048x1024, .i32⟩ : BufTy).Contents (Elt F)),
    unary main_v20 main_v22 (broadcastInDim S32x2048x1024 ![0, 1, 2] bcast_S32x1x1024_S32x2048x1024_0_1_2 : (⟨S32x1x1024, .i32⟩ : BufTy).Contents (Elt F) → (⟨S32x2048x1024, .i32⟩ : BufTy).Contents (Elt F)),
    binary main_v21 main_v22 main_v23 (addi : (⟨S32x2048x1024, .i32⟩ : BufTy).Contents (Elt F) → (⟨S32x2048x1024, .i32⟩ : BufTy).Contents (Elt F) → (⟨S32x2048x1024, .i32⟩ : BufTy).Contents (Elt F)),
    nullary main_c (constantI S_ 32 2048#32),
    TRef.unary (.of main_c : TRef sig ⟨S_, .i32⟩) main_call1.v0 id,
    TRef.nullary main_call1.c (constantI S_ 32 0#32),
    TRef.binary main_call1.v0 main_call1.c main_call1.v1 (cmpi .eq),
    TRef.nullary main_call1.c_0 (constantI S_ 32 1#32),
    TRef.ternary main_call1.v1 main_call1.c_0 main_call1.v0 main_call1.call0.v0 select,
    TRef.unary main_call1.call0.v0 main_call1.v3 (broadcastInDim S32x2048x1024 ![] bcast_S_S32x2048x1024),
    TRef.binary (.of main_v23 : TRef sig ⟨S32x2048x1024, .i32⟩) main_call1.v3 main_call1.v4 Host.remsi,
    TRef.nullary main_call1.c_1 (constantI S_ 32 0#32),
    TRef.unary main_call1.c_1 main_call1.v5 (broadcastInDim S32x2048x1024 ![] bcast_S_S32x2048x1024),
    TRef.binary main_call1.v4 main_call1.v5 main_call1.v6 (cmpi .ne),
    TRef.nullary main_call1.c_2 (constantI S_ 32 0#32),
    TRef.unary main_call1.c_2 main_call1.v7 (broadcastInDim S32x2048x1024 ![] bcast_S_S32x2048x1024),
    TRef.binary main_call1.v4 main_call1.v7 main_call1.v8 (cmpi .slt),
    TRef.nullary main_call1.c_3 (constantI S_ 32 0#32),
    TRef.binary main_call1.call0.v0 main_call1.c_3 main_call1.v9 (cmpi .slt),
    TRef.unary main_call1.v9 main_call1.v10 (broadcastInDim S32x2048x1024 ![] bcast_S_S32x2048x1024),
    TRef.binary main_call1.v8 main_call1.v10 main_call1.v11 (cmpi .ne),
    TRef.binary main_call1.v11 main_call1.v6 main_call1.v12 andi,
    TRef.unary main_call1.call0.v0 main_call1.v13 (broadcastInDim S32x2048x1024 ![] bcast_S_S32x2048x1024),
    TRef.binary main_call1.v4 main_call1.v13 main_call1.v14 addi,
    TRef.ternary main_call1.v12 main_call1.v14 main_call1.v4 main_call1.v15 select ]

abbrev opsC : List (HloOp τ sig (Elt F)) :=
  [ unary main_arg0 main_v25 (broadcastInDim S1x1x2x2048x1024 ![0, 2, 3, 4] bcast_S1x2x2048x1024_S1x1x2x2048x1024_0_2_3_4 : (⟨S1x2x2048x1024, .f32⟩ : BufTy).Contents (Elt F) → (⟨S1x1x2x2048x1024, .f32⟩ : BufTy).Contents (Elt F)),
    unary main_v24 main_v26 (broadcastInDim S1x32x1x2048x1024 ![1, 3, 4] bcast_S32x2048x1024_S1x32x1x2048x1024_1_3_4 : (⟨S32x2048x1024, .i32⟩ : BufTy).Contents (Elt F) → (⟨S1x32x1x2048x1024, .i32⟩ : BufTy).Contents (Elt F)),
    TRef.nullary main_call2.c (constantI S_ 32 0#32),
    TRef.unary main_call2.c main_call2.v0 (broadcastInDim S1x32x1x2048x1024 ![] bcast_S_S1x32x1x2048x1024),
    TRef.binary (.of main_v26 : TRef sig ⟨S1x32x1x2048x1024, .i32⟩) main_call2.v0 main_call2.v1 (cmpi .slt),
    TRef.nullary main_call2.c_0 (constantI S_ 32 2048#32),
    TRef.unary main_call2.c_0 main_call2.v2 (broadcastInDim S1x32x1x2048x1024 ![] bcast_S_S1x32x1x2048x1024),
    TRef.binary (.of main_v26 : TRef sig ⟨S1x32x1x2048x1024, .i32⟩) main_call2.v2 main_call2.v3 addi,
    TRef.ternary main_call2.v1 main_call2.v3 (.of main_v26 : TRef sig ⟨S1x32x1x2048x1024, .i32⟩) main_call2.v4 select,
    TRef.reshape main_call2.v4 main_call2.v5 rfl shapeCasts_S1x32x1x2048x1024_S32x2048x1024x1,
    TRef.reshape (.of main_v25 : TRef sig ⟨S1x1x2x2048x1024, .f32⟩) main_call2.v6 rfl shapeCasts_S1x1x2x2048x1024_S1x2x2048x1024,
    TRef.nullary main_call2.c_1 (constantI S1 32 2047#32),
    TRef.nullary main_call2.c_2 (constantI S_ 32 0#32),
    TRef.unary main_call2.c_2 main_call2.v7 (broadcastInDim S32x2048x1024x1 ![] bcast_S_S32x2048x1024x1),
    TRef.binary main_call2.v5 main_call2.v7 main_call2.v8 (cmpi .sge),
    TRef.unary main_call2.c_1 main_call2.v9 (broadcastInDim S1x1x1x1 ![3] bcast_S1_S1x1x1x1_3),
    TRef.unary main_call2.v9 main_call2.v10 (broadcastInDim S32x2048x1024x1 ![0, 1, 2, 3] bcast_S1x1x1x1_S32x2048x1024x1_0_1_2_3),
    TRef.binary main_call2.v5 main_call2.v10 main_call2.v11 (cmpi .sle),
    TRef.binary main_call2.v8 main_call2.v11 main_call2.v12 andi,
    TRef.nullary main_call2.c_3 (constantI S_ 1 1#1),
    TRef.binary main_call2.v12 main_call2.c_3 main_call2.v13 (fun x v => Host.reduce IntOp.andi x v reducesTo_S32x2048x1024x1_S32x2048x1024_d3 h_S_),
    TRef.binary main_call2.v6 main_call2.v5 main_call2.v14 (fun x i => Host.gather gather_S1x2x2048x1024_S32x2048x1024x1_S1x32x2x2048x1024_02_2_3_2_2_3_1211 x i),
    TRef.unary main_call2.v13 main_call2.v15 (broadcastInDim S1x32x2x2048x1024 ![1, 3, 4] bcast_S32x2048x1024_S1x32x2x2048x1024_1_3_4),
    TRef.nullary main_call2.cst (constant S_ .f32 0x7FC00000#32),
    TRef.unary main_call2.cst main_call2.v16 (broadcastInDim S1x32x2x2048x1024 ![] bcast_S_S1x32x2x2048x1024),
    TRef.ternary main_call2.v15 main_call2.v14 main_call2.v16 main_call2.v17 select ]

theorem ops_split : (ops : List (HloOp τ sig (Elt F))) = opsA ++ (opsB ++ opsC) := rfl

/-- Two lines run one after the other fold as one. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

attribute [local irreducible] Host.reduce Host.reduceAdd Host.gather in
set_option maxRecDepth 8192 in
set_option maxHeartbeats 1000000 in
/-- The first stretch ends with the truncated chunk means, as words: a module-local function's value passes through
    its buffers unchanged. -/
theorem A_v15 (V : Valuation τ sig (Elt F)) :
    after opsA V (main_v15 : DevRef τ sig)
      = Cert.Dedisp.avgInt (V (main_arg1 : DevRef τ sig)) (V (main_arg2 : DevRef τ sig)) := by
  after_results_simp
  simp only [cast_cast, cast_eq, id_eq]
  rfl

set_option maxRecDepth 8192 in
set_option maxHeartbeats 1000000 in
theorem A_arg0 (V : Valuation τ sig (Elt F)) :
    after opsA V (main_arg0 : DevRef τ sig) = V (main_arg0 : DevRef τ sig) := by
  after_results_simp

attribute [local irreducible] Host.reduce Host.reduceAdd Host.gather in
set_option maxRecDepth 8192 in
set_option maxHeartbeats 1000000 in
/-- The second stretch takes the words to the gather's indices: the divisor's conversion is the identity. -/
theorem B_v24 (V : Valuation τ sig (Elt F)) :
    after opsB V (main_v24 : DevRef τ sig) = Cert.Dedisp.gatherIdx (V (main_v15 : DevRef τ sig)) := by
  after_results_simp
  simp only [cast_cast, cast_eq, id_eq]
  rfl

set_option maxRecDepth 8192 in
set_option maxHeartbeats 1000000 in
theorem B_arg0 (V : Valuation τ sig (Elt F)) :
    after opsB V (main_arg0 : DevRef τ sig) = V (main_arg0 : DevRef τ sig) := by
  after_results_simp

/-- Contents moved to a typed reference's buffer type and back are unchanged. -/
theorem ofBuf_toBuf {T : BufTy} (x : TRef sig T) (v : T.Contents (Elt F)) : x.ofBuf (x.toBuf v) = v := by
  unfold TRef.ofBuf TRef.toBuf
  rw [cast_cast]
  exact cast_eq _ _

attribute [local irreducible] select cmpi andi addi broadcastInDim shapeCast constantI constant Host.reduce Host.reduceAdd Host.gather Shape.reshapeEquiv in
set_option maxRecDepth 8192 in
set_option maxHeartbeats 1000000 in
/-- The third stretch gathers the spectrogram at the indices: operation by operation the same tree of
    operations as `takeAlong`, compared without opening any of them. -/
theorem C_v27 (V : Valuation τ sig (Elt F)) :
    after opsC V (main_v27 : DevRef τ sig)
      = Cert.Dedisp.takeAlong (V (main_arg0 : DevRef τ sig)) (V (main_v24 : DevRef τ sig)) := by
  after_results
  repeat rw [ofBuf_toBuf]
  unfold Cert.Dedisp.takeAlong Cert.Dedisp.wrapIdx
  rfl

/-- The gathered spectrogram's buffer after the line: the three stretches composed. -/
theorem out_eq (V : Valuation τ sig (Elt F)) :
    after ops V (main_v27 : DevRef τ sig)
      = Cert.Dedisp.takeAlong (V (main_arg0 : DevRef τ sig))
          (Cert.Dedisp.gatherIdx (Cert.Dedisp.avgInt (V (main_arg1 : DevRef τ sig)) (V (main_arg2 : DevRef τ sig)))) := by
  rw [ops_split, after_app, after_app, C_v27, B_arg0, B_v24, A_arg0, A_v15]

/-- Every weakly fair execution of the reference terminates, with both results at the shared functions of the
    arguments and the arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v27)
          = Cert.Dedisp.takeAlong (m ((c.tc : Thread nD τ).loc main_arg0))
              (Cert.Dedisp.gatherIdx (Cert.Dedisp.avgInt (m ((c.tc : Thread nD τ).loc main_arg1)) (m ((c.tc : Thread nD τ).loc main_arg2))))
      ∧ r.2.mem ((c.tc : Thread nD τ).loc main_v9)
          = Cert.Dedisp.delays (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  exact (θ_run (defs (F := F)) _ _).mono
    (fun _ h c => ⟨(h c main_v27).trans (out_eq _), (h c main_v9).trans (delays_eq _),
      (h c main_arg0).trans (arg0_eq _), (h c main_arg1).trans (arg1_eq _), (h c main_arg2).trans (arg2_eq _)⟩)
    (run_main m ρ)

end Cert.ReferenceIdeal.Hand

end
-- ==== Proof.TakeAlong.lean ====
/-
  The gather along the time axis, read at one entry. With every index inside `[0, 2048)` nothing is wrapped,
  nothing is clamped and nothing is masked: entry `(0, d, p, t, f)` of the result is `x` at `(0, p, idx[d, t, f], f)`.
-/
import proofs.«416176_j68745246540395_3_alg».proof.Proof.Spec
import Idealize.ShloMosaic.Lib.StableHlo.Predicate
import Idealize.ShloMosaic.Lib.Pipeline.Value
import Idealize.ShloMosaic.PureOps.Reduce

noncomputable section

namespace Cert.Dedisp

open Idealize.ShloMosaic Idealize.ShloMosaic.ValueIdx

variable {F : FTy → Type} [FloatOps F]

/-- An array over (measure, time, channel) spread over the result's five axes reads, at `(b, d, p, t, f)`, its entry
    `(d, t, f)`. -/
private theorem bcast_res_apply {α : Type} (v : S32x2048x1024.Idx → α) (b : Fin 1) (d : Fin 32) (p : Fin 2) (t : Fin 2048)
    (f : Fin 1024) :
    broadcastInDim S1x32x2x2048x1024 ![1, 3, 4] (by decide) v (ix5 b d p t f) = v (ix3 d t f) := by
  unfold broadcastInDim
  refine congrArg v (funext fun a => ?_)
  match a with
  | ⟨0, _⟩ => rfl
  | ⟨1, _⟩ => rfl
  | ⟨2, _⟩ => rfl

/-- The index array spread over the five result-like axes reads, at `(b, d, c, t, f)`, the entry `(d, t, f)`. -/
private theorem bcast_idx_apply {α : Type} (v : S32x2048x1024.Idx → α) (b : Fin 1) (d : Fin 32) (c : Fin 1) (t : Fin 2048)
    (f : Fin 1024) :
    broadcastInDim S1x32x1x2048x1024 ![1, 3, 4] (by decide) v (ix5 b d c t f) = v (ix3 d t f) := by
  unfold broadcastInDim
  refine congrArg v (funext fun a => ?_)
  match a with
  | ⟨0, _⟩ => rfl
  | ⟨1, _⟩ => rfl
  | ⟨2, _⟩ => rfl

/-- An index word below 2048 is not negative, so it is read unchanged. -/
private theorem wrapIdx_apply (idx : IVec S32x2048x1024 32) (d : Fin 32) (t : Fin 2048) (f : Fin 1024)
    (h : (idx (ix3 d t f)).toNat < 2048) :
    wrapIdx idx (ix4 d t f (0 : Fin 1)) = idx (ix3 d t f) := by
  unfold wrapIdx
  refine (shapeCast_apply _ _ (ix4 d t f (0 : Fin 1)) (ix5 (0 : Fin 1) d (0 : Fin 1) t f) ?_).trans ?_
  · rw [Shape.rowMajor_val_five, Shape.rowMajor_val_four]
    show (((0 * 32 + d.val) * 1 + 0) * 2048 + t.val) * 1024 + f.val = ((d.val * 2048 + t.val) * 1024 + f.val) * 1 + 0
    omega
  · have hn : ¬ IntOp.cmpi .slt (idx (ix3 d t f)) (0#32) = 1#1 := by
      rw [StableHlo.Predicate.slt_iff_toNat (by omega) (by decide)]
      simp
    show Scalar.select
        (IntOp.cmpi .slt (broadcastInDim S1x32x1x2048x1024 ![1, 3, 4] (by decide) idx (ix5 (0 : Fin 1) d (0 : Fin 1) t f)) (0#32))
        (IntOp.addi (broadcastInDim S1x32x1x2048x1024 ![1, 3, 4] (by decide) idx (ix5 (0 : Fin 1) d (0 : Fin 1) t f)) (2048#32))
        (broadcastInDim S1x32x1x2048x1024 ![1, 3, 4] (by decide) idx (ix5 (0 : Fin 1) d (0 : Fin 1) t f)) = idx (ix3 d t f)
    rw [bcast_idx_apply, eq_zero_of_ne_one hn, select_zero]

/-- The spectrogram passed through the two reshapes reads, at every entry, itself. -/
private theorem reshaped_apply (x : FVec F S1x2x2048x1024 .f32) (p : Fin 2) (k : Fin 2048) (f : Fin 1024) :
    shapeCast S1x2x2048x1024 (broadcastInDim S1x1x2x2048x1024 ![0, 2, 3, 4] (by decide) x) (by decide) (ix4 (0 : Fin 1) p k f)
      = x (ix4 (0 : Fin 1) p k f) := by
  refine (shapeCast_apply _ _ (ix4 (0 : Fin 1) p k f) (ix5 (0 : Fin 1) (0 : Fin 1) p k f) ?_).trans ?_
  · rw [Shape.rowMajor_val_five, Shape.rowMajor_val_four]
    show (((0 * 1 + 0) * 2 + p.val) * 2048 + k.val) * 1024 + f.val = ((0 * 2 + p.val) * 2048 + k.val) * 1024 + f.val
    omega
  · unfold broadcastInDim
    refine congrArg x (funext fun a => ?_)
    match a with
    | ⟨0, _⟩ => rfl
    | ⟨1, _⟩ => rfl
    | ⟨2, _⟩ => rfl
    | ⟨3, _⟩ => rfl

/-- The gather read at `(b, d, p, t, f)`: the operand at polarisation `p`, channel `f`, and on the time axis the start
    index `w[d, t, f, 0]` read signed and clamped to the last sample. -/
private theorem gather_apply {α : Type} (xr : S1x2x2048x1024.Idx → α) (w : IVec S32x2048x1024x1 32) (b : Fin 1) (d : Fin 32)
    (p : Fin 2) (t : Fin 2048) (f : Fin 1024) :
    Host.gather alongTime xr w (ix5 b d p t f)
      = xr (ix4 (0 : Fin 1) p (⟨min (w (ix4 d t f (0 : Fin 1))).toInt.toNat 2047, by omega⟩ : Fin 2048) f) := by
  unfold Host.gather
  refine congrArg xr (funext fun a => Fin.ext ?_)
  match a with
  | ⟨0, _⟩ =>
    show alongTime.start (ix5 b d p t f) w (0 : Fin 4) + alongTime.batchCoord (ix5 b d p t f) (0 : Fin 4) + alongTime.offCoord (ix5 b d p t f) (0 : Fin 4) = _
    rw [GatherDims.batchCoord_eq_zero _ _ _ (by decide)]
    unfold GatherDims.start GatherDims.offCoord
    rw [dif_neg (by decide), dif_pos (by decide)]
    show 0 + 0 + b.val = 0
    omega
  | ⟨1, _⟩ =>
    show alongTime.start (ix5 b d p t f) w (1 : Fin 4) + alongTime.batchCoord (ix5 b d p t f) (1 : Fin 4) + alongTime.offCoord (ix5 b d p t f) (1 : Fin 4) = _
    rw [GatherDims.batchCoord_eq_zero _ _ _ (by decide)]
    unfold GatherDims.start GatherDims.offCoord
    rw [dif_neg (by decide), dif_pos (by decide)]
    show 0 + 0 + p.val = p.val
    omega
  | ⟨2, _⟩ =>
    show alongTime.start (ix5 b d p t f) w (2 : Fin 4) + alongTime.batchCoord (ix5 b d p t f) (2 : Fin 4) + alongTime.offCoord (ix5 b d p t f) (2 : Fin 4) = _
    rw [GatherDims.batchCoord_eq_zero _ _ _ (by decide), GatherDims.offCoord_eq_zero _ _ _ (by decide)]
    unfold GatherDims.start
    rw [dif_pos (by decide)]
    have hsi : alongTime.siIdx (ix5 b d p t f) ⟨List.idxOf (2 : Fin 4) alongTime.startIndexMap,
        List.idxOf_lt_length_iff.2 (by decide)⟩ = ix4 d t f (0 : Fin 1) := by
      funext c; refine Fin.ext ?_
      match c with
      | ⟨0, _⟩ => rfl
      | ⟨1, _⟩ => rfl
      | ⟨2, _⟩ => rfl
      | ⟨3, _⟩ => rfl
    rw [hsi]
    rfl
  | ⟨3, _⟩ =>
    show alongTime.start (ix5 b d p t f) w (3 : Fin 4) + alongTime.batchCoord (ix5 b d p t f) (3 : Fin 4) + alongTime.offCoord (ix5 b d p t f) (3 : Fin 4) = _
    rw [GatherDims.start_batching _ _ _ _ (by decide), GatherDims.offCoord_eq_zero _ _ _ (by decide)]
    unfold GatherDims.batchCoord
    rw [dif_pos (by decide)]
    show 0 + f.val + 0 = f.val
    omega

/-- A fold over the one coordinate of an axis of extent one combines that one value with the start. -/
private theorem fold_fin_one {β : Type} (op : β → β → β) [Std.Commutative op] [Std.Associative op] (b : β) (g : Fin 1 → β) :
    (Finset.univ : Finset (Fin 1)).fold op b g = op (g 0) b := by
  rw [show (Finset.univ : Finset (Fin 1)) = {0} from rfl, Finset.fold_singleton]

/-- The in-range mask at `(d, t, f)`: with the index word below 2048 both comparisons hold, and the reduction by
    `and` over the trailing axis of extent one, from 1, is 1. -/
private theorem mask_apply (idx : IVec S32x2048x1024 32) (d : Fin 32) (t : Fin 2048) (f : Fin 1024)
    (h : (idx (ix3 d t f)).toNat < 2048) :
    Host.reduce IntOp.andi
        (andi
          (cmpi .sge (wrapIdx idx) (broadcastInDim S32x2048x1024x1 ![] (by decide) (constantI S_ 32 0#32)))
          (cmpi .sle (wrapIdx idx)
            (broadcastInDim S32x2048x1024x1 ![0, 1, 2, 3] (by decide)
              (broadcastInDim S1x1x1x1 ![3] (by decide) (constantI S1 32 2047#32)))))
        (constantI S_ 1 1#1) (by decide : S32x2048x1024x1.ReducesTo [3] S32x2048x1024) (by decide) (ix3 d t f) = 1#1 := by
  have hR : S32x2048x1024x1.Reduces [3] S32x2048x1024 := by decide
  rw [Host.reduce_eq_fold_single IntOp.andi _ _ _ hR]
  have hl : hR.lift (ix3 d t f) (0 : Fin 1) = ix4 d t f (0 : Fin 1) := by
    funext c; refine Fin.ext ?_
    match c with
    | ⟨0, _⟩ => rfl
    | ⟨1, _⟩ => rfl
    | ⟨2, _⟩ => rfl
    | ⟨3, _⟩ => rfl
  refine (fold_fin_one IntOp.andi _ _).trans ?_
  show IntOp.andi (IntOp.andi (IntOp.cmpi .sge (wrapIdx idx (hR.lift (ix3 d t f) (0 : Fin 1))) 0#32)
    (IntOp.cmpi .sle (wrapIdx idx (hR.lift (ix3 d t f) (0 : Fin 1))) 2047#32)) 1#1 = 1#1
  rw [hl, wrapIdx_apply idx d t f h,
    (StableHlo.Predicate.sge_iff_toNat (by omega) (by decide)).2 (by simp),
    (StableHlo.Predicate.sle_iff_toNat (by omega) (by decide)).2 (by simp; omega)]
  decide

/-- `takeAlong x idx` at `(b, d, p, t, f)`, for an index word below 2048 there. -/
theorem takeAlong_apply (x : FVec F S1x2x2048x1024 .f32) (idx : IVec S32x2048x1024 32)
    (b : Fin 1) (d : Fin 32) (p : Fin 2) (t : Fin 2048) (f : Fin 1024) (h : (idx (ix3 d t f)).toNat < 2048) :
    takeAlong x idx (ix5 b d p t f) = x (ix4 (0 : Fin 1) p (⟨(idx (ix3 d t f)).toNat, h⟩ : Fin 2048) f) := by
  unfold takeAlong
  rw [select_apply, bcast_res_apply, mask_apply idx d t f h, select_one, gather_apply, reshaped_apply]
  refine congrArg x (congrArg (fun k => ix4 (0 : Fin 1) p k f) (Fin.ext ?_))
  show min (wrapIdx idx (ix4 d t f (0 : Fin 1))).toInt.toNat 2047 = (idx (ix3 d t f)).toNat
  rw [wrapIdx_apply idx d t f h, StableHlo.Predicate.toInt_eq_toNat_of_lt (by omega), Int.toNat_natCast]
  omega

end Cert.Dedisp

end
-- ==== Proof.RefValue.lean ====
/-
  The two index computations agree. The reference gathers `x` at time `(t + a) mod 2048`, the kernel reads its
  doubled buffer at `(a mod 2048) + t`, that is `x` at time `((a mod 2048) + t) mod 2048`; for every 32-bit word `a`
  these are the same residue. With every gather index inside `[0, 2048)` the gather neither wraps, clamps nor
  masks, so the reference's result is the rolled spectrogram entry by entry.
-/
import proofs.«416176_j68745246540395_3_alg».proof.Proof.WordMod
import proofs.«416176_j68745246540395_3_alg».proof.Proof.TakeAlong

noncomputable section

namespace Cert.Dedisp

open Idealize.ShloMosaic Idealize.ShloMosaic.ValueIdx

variable {F : FTy → Type} [FloatOps F]

/-- The gather of `x` at the reference's indices is `x` rolled by the kernel's offsets. -/
theorem takeAlong_gatherIdx (x : FVec F S1x2x2048x1024 .f32) (dm : FVec F S32 .f32) (fs : FVec F S1024 .f32) :
    takeAlong x (gatherIdx (avgInt dm fs)) = rolled x (shiftTab dm fs) := by
  funext j
  obtain ⟨b, d, p, t, f, rfl⟩ : ∃ (b : Fin 1) (d : Fin 32) (p : Fin 2) (t : Fin 2048) (f : Fin 1024), j = ix5 b d p t f :=
    ⟨j 0, j 1, j 2, j 3, j 4, eq_ix5 j⟩
  have hlt : (gatherIdx (avgInt dm fs) (ix3 d t f)).toNat < 2048 := by
    rw [gatherIdx_toNat]; exact Nat.mod_lt _ (by decide)
  rw [takeAlong_apply x _ b d p t f hlt]
  show x _ = x _
  refine congrArg x ?_
  funext a; apply Fin.ext
  match a with
  | ⟨0, _⟩ => rfl
  | ⟨1, _⟩ => rfl
  | ⟨2, _⟩ =>
    show (gatherIdx (avgInt dm fs) (ix3 d t f)).toNat
      = ((shiftTab dm fs (ix2 d (⟨f.val / 128, by have := f.isLt; omega⟩ : Fin 8))).toNat + t.val) % 2048
    rw [gatherIdx_toNat, shiftTab_toNat]
    generalize (avgInt dm fs (ix2 d (⟨f.val / 128, _⟩ : Fin 8))).toNat = A
    omega
  | ⟨3, _⟩ => rfl

end Cert.Dedisp

end
-- ==== Proof.lean ====
/-
  The certificate. Both programs compute, from a spectrogram `x`, dispersion measures `dm` and channel scales `fs`,
  the delay table `500 · tanh(dm · fs / 1000)` and, for every measure and every chunk of 128 channels, `x` rolled
  along time by the chunk's mean delay truncated to an integer. The reference gathers row `(t + a) mod 2048`; the
  kernel reduces the offset first, `s = a mod 2048`, lays each input block out twice in a scratch of 4096 rows and
  copies rows `s … s + 2047`, which is row `(s + t) mod 2048` of the block. The two agree for every word `a`, so no
  property of the inputs is used beyond what the statement gives.

  * The kernel's frames: the generated frame holds under the side conditions the body assumes of the offsets it
    loads; these hold because the offsets are the host's own remainders (`Hand.hyps`).
  * The reference's frame and value: it is a straight line of host operations (`ReferenceIdeal.Hand.run`).
  * The kernel's value: read off the frame's run, block by block (`KernelIdeal.Hand.run`).
  * The idealization rewrote nothing, so `preserves` is trivial.
-/
import proofs.«416176_j68745246540395_3_alg».proof.Defs
import proofs.«416176_j68745246540395_3_alg».proof.Proof.Gen.Kernel
import proofs.«416176_j68745246540395_3_alg».proof.Proof.Gen.Kernel.Frame
import proofs.«416176_j68745246540395_3_alg».proof.Proof.Gen.KernelIdeal
import proofs.«416176_j68745246540395_3_alg».proof.Proof.Gen.KernelIdeal.Frame
import proofs.«416176_j68745246540395_3_alg».proof.Proof.Gen.ReferenceIdeal
import proofs.«416176_j68745246540395_3_alg».proof.Proof.Gen.Pre_finite_inputs
import proofs.«416176_j68745246540395_3_alg».proof.Proof.KTableBits
import proofs.«416176_j68745246540395_3_alg».proof.Proof.KRun
import proofs.«416176_j68745246540395_3_alg».proof.Proof.RefRun
import proofs.«416176_j68745246540395_3_alg».proof.Proof.RefValue
import Idealize.ShloMosaic.Adequacy
import Idealize.ShloMosaic.Init

noncomputable section

namespace Cert.Proof

open Idealize.ShloMosaic Idealize.SL.Sem

theorem frame_kernel : Cert.frame_Kernel (hKernel := Cert.Kernel.Gen.facts) (hPre_finite_inputs := Cert.Pre_finite_inputs.Gen.facts) :=
  fun m ρ _ => Cert.Kernel.Gen.frame m ρ (Cert.Kernel.Hand.ok m) (Cert.Kernel.Hand.hyps m)

theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ (Cert.KernelIdeal.Hand.ok m) (Cert.KernelIdeal.Hand.hyps m)

theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2)
    (Cert.ReferenceIdeal.Hand.run (F := Ideal) m ρ)

/-- Over the extended reals both programs end with the rolled spectrogram and the delay table of arguments that agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, _, Cert.KernelIdeal.Hand.run (F := Ideal) m ρ, ?_⟩
  refine (θ_run Cert.ReferenceIdeal.defs _ _).mono (fun _ h c => ?_) (Cert.ReferenceIdeal.Hand.run (F := Ideal) m' ρ')
  obtain ⟨h1, h2, h3, h4, h5⟩ := h c
  obtain ⟨a0, a1, a2⟩ := hagree c
  refine ⟨?_, ?_, h3, h4, h5⟩
  · rw [h1, a0, a1, a2]
    exact Cert.Dedisp.takeAlong_gatherIdx _ _ _
  · rw [h2, a1, a2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
